-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v51)) (v3 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_v58_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x468x3 : Shape := ⟨3, ![32768, 468, 3]⟩
abbrev S1404x256 : Shape := ⟨2, ![1404, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S70x512 : Shape := ⟨2, ![70, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S32768x468x3 : S_.BroadcastsInDim S32768x468x3 (![] : Fin 0 → Fin S32768x468x3.rank)
  reducesTo_S32768x468x3_S_d0_1_2 : S32768x468x3.ReducesTo [0, 1, 2] S_
  h_S_ : 0 < S_.numel
  bcast_S_S1404x256 : S_.BroadcastsInDim S1404x256 (![] : Fin 0 → Fin S1404x256.rank)
  reducesTo_S1404x256_S_d0_1 : S1404x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S70x512 : S_.BroadcastsInDim S70x512 (![] : Fin 0 → Fin S70x512.rank)
  reducesTo_S70x512_S_d0_1 : S70x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S70x512 .f32) (main_arg8 : FVec F S512 .f32) (main_arg9 : FVec F S512x2 .f32) (main_arg10 : FVec F S2 .f32) (main_v33 : IVec S_ 1) : IVec S_ 1 :=
  let main_v34 : FVec F S70x512 .f32 := Host.absf main_arg7
  let main_cst_12 : FVec F S_ .f32 := constant S_ .f32 0x7F800000#32
  let main_v35 : FVec F S70x512 .f32 := broadcastInDim S70x512 ![] bcast_S_S70x512 main_cst_12
  let main_v36 : IVec S70x512 1 := cmpf .olt main_v34 main_v35
  let main_c_13 : IVec S_ 1 := constantI S_ 1 1#1
  let main_v37 : IVec S_ 1 := (fun x v => Host.reduce IntOp.andi x v reducesTo_S70x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2 .f32 := Host.absf main_arg9
  let main_cst_16 : FVec F S_ .f32 := constant S_ .f32 0x7F800000#32
  let main_v45 : FVec F S512x2 .f32 := broadcastInDim S512x2 ![] bcast_S_S512x2 main_cst_16
  let main_v46 : IVec S512x2 1 := cmpf .olt main_v44 main_v45
  let main_c_17 : IVec S_ 1 := constantI S_ 1 1#1
  let main_v47 : IVec S_ 1 := (fun x v => Host.reduce IntOp.andi x v reducesTo_S512x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S70x512 .f32) (main_arg8 : FVec F S512 .f32) (main_arg9 : FVec F S512x2 .f32) (main_arg10 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x468x3 .f32) (main_arg1 : FVec F S1404x256 .f32) (main_arg2 : FVec F S256 .f32) (main_arg3 : FVec F S256x128 .f32) (main_arg4 : FVec F S128 .f32) (main_arg5 : FVec F S128x64 .f32) (main_arg6 : FVec F S64 .f32) (main_arg7 : FVec F S70x512 .f32) (main_arg8 : FVec F S512 .f32) (main_arg9 : FVec F S512x2 .f32) (main_arg10 : FVec F S2 .f32) : IVec S_ 1 :=
  let main_v0 : FVec F S32768x468x3 .f32 := Host.absf main_arg0
  let main_cst : FVec F S_ .f32 := constant S_ .f32 0x7F800000#32
  let main_v1 : FVec F S32768x468x3 .f32 := broadcastInDim S32768x468x3 ![] bcast_S_S32768x468x3 main_cst
  let main_v2 : IVec S32768x468x3 1 := cmpf .olt main_v0 main_v1
  let main_c : IVec S_ 1 := constantI S_ 1 1#1
  let main_v3 : IVec S_ 1 := (fun x v => Host.reduce IntOp.andi x v reducesTo_S32768x468x3_S_d0_1_2 h_S_) main_v2 main_c
  let main_v4 : FVec F S1404x256 .f32 := Host.absf main_arg1
  let main_cst_0 : FVec F S_ .f32 := constant S_ .f32 0x7F800000#32
  let main_v5 : FVec F S1404x256 .f32 := broadcastInDim S1404x256 ![] bcast_S_S1404x256 main_cst_0
  let main_v6 : IVec S1404x256 1 := cmpf .olt main_v4 main_v5
  let main_c_1 : IVec S_ 1 := constantI S_ 1 1#1
  let main_v7 : IVec S_ 1 := (fun x v => Host.reduce IntOp.andi x v reducesTo_S1404x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S32768x468x3 : Shape := ⟨3, ![32768, 468, 3]⟩
abbrev S1404x256 : Shape := ⟨2, ![1404, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S70x512 : Shape := ⟨2, ![70, 512]⟩
abbrev S512 : Shape := ⟨1, ![512]⟩
abbrev S512x2 : Shape := ⟨2, ![512, 2]⟩
abbrev S2 : Shape := ⟨1, ![2]⟩
abbrev S32768x1x3 : Shape := ⟨3, ![32768, 1, 3]⟩
abbrev S32768x3 : Shape := ⟨2, ![32768, 3]⟩
abbrev S_ : Shape := ⟨0, ![]⟩
abbrev S32768x1 : Shape := ⟨2, ![32768, 1]⟩
abbrev S32768 : Shape := ⟨1, ![32768]⟩
abbrev S32768x6 : Shape := ⟨2, ![32768, 6]⟩
abbrev S32768x1404 : Shape := ⟨2, ![32768, 1404]⟩
abbrev S32768x2 : Shape := ⟨2, ![32768, 2]⟩
abbrev S32768x512 : Shape := ⟨2, ![32768, 512]⟩
abbrev S32768x64 : Shape := ⟨2, ![32768, 64]⟩
abbrev S1024x1404 : Shape := ⟨2, ![1024, 1404]⟩
abbrev S1024x6 : Shape := ⟨2, ![1024, 6]⟩
abbrev S1024x2 : Shape := ⟨2, ![1024, 2]⟩
abbrev S1024x512 : Shape := ⟨2, ![1024, 512]⟩
abbrev S1024x64 : Shape := ⟨2, ![1024, 64]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1x64 : Shape := ⟨2, ![1, 64]⟩
abbrev S1024x70 : Shape := ⟨2, ![1024, 70]⟩
abbrev S1x512 : Shape := ⟨2, ![1, 512]⟩
abbrev S1x2 : Shape := ⟨2, ![1, 2]⟩

abbrev nBuf : Space → Nat
  | .hbm => 73
  | .vmem => 20
  | .smem => 0
  | _ => 0

abbrev bufTy : (tb : Table) → Fin (tcTables nBuf tb) → BufTy
  | .hbm, ⟨0, _⟩ => ⟨S32768x468x3, .f32⟩
  | .hbm, ⟨1, _⟩ => ⟨S1404x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S70x512, .f32⟩
  | .hbm, ⟨8, _⟩ => ⟨S512, .f32⟩
  | .hbm, ⟨9, _⟩ => ⟨S512x2, .f32⟩
  | .hbm, ⟨10, _⟩ => ⟨S2, .f32⟩
  | .hbm, ⟨11, _⟩ => ⟨S32768x1x3, .f32⟩
  | .hbm, ⟨12, _⟩ => ⟨S32768x3, .f32⟩
  | .hbm, ⟨13, _⟩ => ⟨S32768x1x3, .f32⟩
  | .hbm, ⟨14, _⟩ => ⟨S32768x3, .f32⟩
  | .hbm, ⟨15, _⟩ => ⟨S32768x1x3, .f32⟩
  | .hbm, ⟨16, _⟩ => ⟨S32768x3, .f32⟩
  | .hbm, ⟨17, _⟩ => ⟨S32768x1x3, .f32⟩
  | .hbm, ⟨18, _⟩ => ⟨S32768x3, .f32⟩
  | .hbm, ⟨19, _⟩ => ⟨S32768x1x3, .f32⟩
  | .hbm, ⟨20, _⟩ => ⟨S32768x3, .f32⟩
  | .hbm, ⟨21, _⟩ => ⟨S32768x1x3, .f32⟩
  | .hbm, ⟨22, _⟩ => ⟨S32768x3, .f32⟩
  | .hbm, ⟨23, _⟩ => ⟨S32768x3, .f32⟩
  | .hbm, ⟨24, _⟩ => ⟨S_, .f32⟩
  | .hbm, ⟨25, _⟩ => ⟨S32768x3, .f32⟩
  | .hbm, ⟨26, _⟩ => ⟨S32768x3, .f32⟩
  | .hbm, ⟨27, _⟩ => ⟨S32768x1, .f32⟩
  | .hbm, ⟨28, _⟩ => ⟨S32768, .f32⟩
  | .hbm, ⟨29, _⟩ => ⟨S32768x1, .f32⟩
  | .hbm, ⟨30, _⟩ => ⟨S32768, .f32⟩
  | .hbm, ⟨31, _⟩ => ⟨S32768, .f32⟩
  | .hbm, ⟨32, _⟩ => ⟨S32768x1, .f32⟩
  | .hbm, ⟨33, _⟩ => ⟨S32768, .f32⟩
  | .hbm, ⟨34, _⟩ => ⟨S32768x1, .f32⟩
  | .hbm, ⟨35, _⟩ => ⟨S32768, .f32⟩
  | .hbm, ⟨36, _⟩ => ⟨S32768, .f32⟩
  | .hbm, ⟨37, _⟩ => ⟨S32768x1, .f32⟩
  | .hbm, ⟨38, _⟩ => ⟨S32768, .f32⟩
  | .hbm, ⟨39, _⟩ => ⟨S32768x1, .f32⟩
  | .hbm, ⟨40, _⟩ => ⟨S32768, .f32⟩
  | .hbm, ⟨41, _⟩ => ⟨S32768, .f32⟩
  | .hbm, ⟨42, _⟩ => ⟨S32768x1, .f32⟩
  | .hbm, ⟨43, _⟩ => ⟨S32768, .f32⟩
  | .hbm, ⟨44, _⟩ => ⟨S32768x1, .f32⟩
  | .hbm, ⟨45, _⟩ => ⟨S32768, .f32⟩
  | .hbm, ⟨46, _⟩ => ⟨S32768, .f32⟩
  | .hbm, ⟨47, _⟩ => ⟨S32768x1, .f32⟩
  | .hbm, ⟨48, _⟩ => ⟨S32768, .f32⟩
  | .hbm, ⟨49, _⟩ => ⟨S32768x1, .f32⟩
  | .hbm, ⟨50, _⟩ => ⟨S32768, .f32⟩
  | .hbm, ⟨51, _⟩ => ⟨S32768, .f32⟩
  | .hbm, ⟨52, _⟩ => ⟨S32768x1, .f32⟩
  | .hbm, ⟨53, _⟩ => ⟨S32768, .f32⟩
  | .hbm, ⟨54, _⟩ => ⟨S32768x1, .f32⟩
  | .hbm, ⟨55, _⟩ => ⟨S32768, .f32⟩
  | .hbm, ⟨56, _⟩ => ⟨S32768, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x6, .f32⟩
  | .hbm, ⟨64, _⟩ => ⟨S32768x1404, .f32⟩
  | .hbm, ⟨65, _⟩ => ⟨S1404x256, .bf16⟩
  | .hbm, ⟨66, _⟩ => ⟨S256x128, .bf16⟩
  | .hbm, ⟨67, _⟩ => ⟨S128x64, .bf16⟩
  | .hbm, ⟨68, _⟩ => ⟨S70x512, .bf16⟩
  | .hbm, ⟨69, _⟩ => ⟨S512x2, .bf16⟩
  | .hbm, ⟨70, _⟩ => ⟨S32768x2, .f32⟩
  | .hbm, ⟨71, _⟩ => ⟨S32768x512, .f32⟩
  | .hbm, ⟨72, _⟩ => ⟨S32768x64, .f32⟩
  | .local _ .vmem, ⟨0, _⟩ => ⟨S1024x1404, .f32⟩
  | .local _ .vmem, ⟨1, _⟩ => ⟨S1024x1404, .f32⟩
  | .local _ .vmem, ⟨2, _⟩ => ⟨S1024x6, .f32⟩
  | .local _ .vmem, ⟨3, _⟩ => ⟨S1024x6, .f32⟩
  | .local _ .vmem, ⟨4, _⟩ => ⟨S1404x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S128x64, .bf16⟩
  | .local _ .vmem, ⟨9, _⟩ => ⟨S64, .f32⟩
  | .local _ .vmem, ⟨10, _⟩ => ⟨S70x512, .bf16⟩
  | .local _ .vmem, ⟨11, _⟩ => ⟨S512, .f32⟩
  | .local _ .vmem, ⟨12, _⟩ => ⟨S512x2, .bf16⟩
  | .local _ .vmem, ⟨13, _⟩ => ⟨S2, .f32⟩
  | .local _ .vmem, ⟨14, _⟩ => ⟨S1024x2, .f32⟩
  | .local _ .vmem, ⟨15, _⟩ => ⟨S1024x2, .f32⟩
  | .local _ .vmem, ⟨16, _⟩ => ⟨S1024x512, .f32⟩
  | .local _ .vmem, ⟨17, _⟩ => ⟨S1024x512, .f32⟩
  | .local _ .vmem, ⟨18, _⟩ => ⟨S1024x64, .f32⟩
  | .local _ .vmem, ⟨19, _⟩ => ⟨S1024x64, .f32⟩
  | _, _ => ⟨S32768x468x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58_0 : Ref sig .tc := ⟨.hbm, 70, rfl⟩
abbrev main_v58_1 : Ref sig .tc := ⟨.hbm, 71, rfl⟩
abbrev main_v58_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1404 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1404x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S70x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S32768x468x3_S32768x1x3_0_1_0 : S32768x468x3.Slices ![0, 1, 0] S32768x1x3
  shapeCasts_S32768x1x3_S32768x3 : S32768x1x3.ShapeCasts S32768x3
  slices_S32768x468x3_S32768x1x3_0_33_0 : S32768x468x3.Slices ![0, 33, 0] S32768x1x3
  slices_S32768x468x3_S32768x1x3_0_263_0 : S32768x468x3.Slices ![0, 263, 0] S32768x1x3
  slices_S32768x468x3_S32768x1x3_0_61_0 : S32768x468x3.Slices ![0, 61, 0] S32768x1x3
  slices_S32768x468x3_S32768x1x3_0_291_0 : S32768x468x3.Slices ![0, 291, 0] S32768x1x3
  slices_S32768x468x3_S32768x1x3_0_18_0 : S32768x468x3.Slices ![0, 18, 0] S32768x1x3
  bcast_S_S32768x3 : S_.BroadcastsInDim S32768x3 (![] : Fin 0 → Fin S32768x3.rank)
  slices_S32768x3_S32768x1_0_0 : S32768x3.Slices ![0, 0] S32768x1
  shapeCasts_S32768x1_S32768 : S32768x1.ShapeCasts S32768
  slices_S32768x3_S32768x1_0_1 : S32768x3.Slices ![0, 1] S32768x1
  slices_S32768x3_S32768x1_0_2 : S32768x3.Slices ![0, 2] S32768x1
  bcast_S32768_S32768x1_0 : S32768.BroadcastsInDim S32768x1 (![0] : Fin 1 → Fin S32768x1.rank)
  concatenates_S32768x1_S32768x1_S32768x1_S32768x1_S32768x1_S32768x1_S32768x6_d1 : Shape.Concatenates [S32768x1, S32768x1, S32768x1, S32768x1, S32768x1, S32768x1] S32768x6 1
  shapeCasts_S32768x468x3_S32768x1404 : S32768x468x3.ShapeCasts S32768x1404
  bitsLt_bf16_f32 : FTy.bits .bf16 < FTy.bits .f32
  inb_S1024x1404_S1024x1404_0_0 : ∀ a, (![0, 0] : Fin 2 → Nat) a + S1024x1404.size a ≤ S1024x1404.size a
  h_S1024x1404 : 0 < S1024x1404.numel
  shapeCasts_S1024x1404_S1024x1404 : S1024x1404.ShapeCasts S1024x1404
  inb_S1404x256_S1404x256_0_0 : ∀ a, (![0, 0] : Fin 2 → Nat) a + S1404x256.size a ≤ S1404x256.size a
  h_S1404x256 : 0 < S1404x256.numel
  shapeCasts_S1404x256_S1404x256 : S1404x256.ShapeCasts S1404x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  concatenates_S1024x64_S1024x6_S1024x70_d1 : Shape.Concatenates [S1024x64, S1024x6] S1024x70 1
  inb_S70x512_S70x512_0_0 : ∀ a, (![0, 0] : Fin 2 → Nat) a + S70x512.size a ≤ S70x512.size a
  h_S70x512 : 0 < S70x512.numel
  shapeCasts_S70x512_S70x512 : S70x512.ShapeCasts S70x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x1404_S1404x256_S1024x256_1_0_0_1_n_n_wf : DotDims.WF S1024x1404 S1404x256 S1024x256 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x70_S70x512_S1024x512_1_0_0_1_n_n_wf : DotDims.WF S1024x70 S70x512 S1024x512 [1] [0] [0] [1] [] []
  dot_S1024x512_S512x2_S1024x2_1_0_0_1_n_n_wf : DotDims.WF S1024x512 S512x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1404.size a ≤ S32768x1404.size a
  hwx0_0 : ∀ i : grid0.Coords, EltTy.bits .f32 = 32 ∨ (Rect.block (s := S32768x1404) S1024x1404.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x6.size a ≤ S32768x6.size a
  hwx0_1 : ∀ i : grid0.Coords, EltTy.bits .f32 = 32 ∨ (Rect.block (s := S32768x6) S1024x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1404x256.size a ≤ S1404x256.size a
  hwx0_2 : ∀ i : grid0.Coords, EltTy.bits .bf16 = 32 ∨ (Rect.block (s := S1404x256) S1404x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S70x512.size a ≤ S70x512.size a
  hwx0_8 : ∀ i : grid0.Coords, EltTy.bits .bf16 = 32 ∨ (Rect.block (s := S70x512) S70x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2.size a ≤ S512x2.size a
  hwx0_10 : ∀ i : grid0.Coords, EltTy.bits .bf16 = 32 ∨ (Rect.block (s := S512x2) S512x2.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2.size a ≤ S2.size a
  hwx0_11 : ∀ i : grid0.Coords, EltTy.bits .f32 = 32 ∨ (Rect.block (s := S2) S2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x2.size a ≤ S32768x2.size a
  hwx0_12 : ∀ i : grid0.Coords, EltTy.bits .f32 = 32 ∨ (Rect.block (s := S32768x2) S1024x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S32768x512.size a
  hwx0_13 : ∀ i : grid0.Coords, EltTy.bits .f32 = 32 ∨ (Rect.block (s := S32768x512) S1024x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S32768x64.size a
  hwx0_14 : ∀ i : grid0.Coords, EltTy.bits .f32 = 32 ∨ (Rect.block (s := S32768x64) S1024x64.size (cc0_transform_14 i) (hinb0_14 i)).WholeWords (EltTy.packing .f32)

variable [Facts₀]

def dot_S1024x1404_S1404x256_S1024x256_1_0_0_1_n_n : DotDims S1024x1404 S1404x256 S1024x256 where
  lhsContracting := [1]
  rhsContracting := [0]
  lhsNonContracting := [0]
  rhsNonContracting := [1]
  lhsBatch := []
  rhsBatch := []
  wf := dot_S1024x1404_S1404x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x70_S70x512_S1024x512_1_0_0_1_n_n : DotDims S1024x70 S70x512 S1024x512 where
  lhsContracting := [1]
  rhsContracting := [0]
  lhsNonContracting := [0]
  rhsNonContracting := [1]
  lhsBatch := []
  rhsBatch := []
  wf := dot_S1024x70_S70x512_S1024x512_1_0_0_1_n_n_wf
def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf

abbrev win0_0 : Pipeline.Window sig grid0 :=
  Pipeline.Window.ofSpec (Memref.whole main_v52) S1024x1404.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1024x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1404x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v56) S70x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S512x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v58_0) S1024x2.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v58_1) S1024x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v58_2) S1024x64.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S32768x468x3 : Shape := ⟨3, ![32768, 468, 3]⟩
abbrev S1404x256 : Shape := ⟨2, ![1404, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S70x512 : Shape := ⟨2, ![70, 512]⟩
abbrev S512 : Shape := ⟨1, ![512]⟩
abbrev S512x2 : Shape := ⟨2, ![512, 2]⟩
abbrev S2 : Shape := ⟨1, ![2]⟩
abbrev S32768x1x3 : Shape := ⟨3, ![32768, 1, 3]⟩
abbrev S32768x3 : Shape := ⟨2, ![32768, 3]⟩
abbrev S_ : Shape := ⟨0, ![]⟩
abbrev S32768x1 : Shape := ⟨2, ![32768, 1]⟩
abbrev S32768 : Shape := ⟨1, ![32768]⟩
abbrev S32768x6 : Shape := ⟨2, ![32768, 6]⟩
abbrev S32768x1404 : Shape := ⟨2, ![32768, 1404]⟩
abbrev S32768x256 : Shape := ⟨2, ![32768, 256]⟩
abbrev S1x256 : Shape := ⟨2, ![1, 256]⟩
abbrev S32768x128 : Shape := ⟨2, ![32768, 128]⟩
abbrev S1x128 : Shape := ⟨2, ![1, 128]⟩
abbrev S32768x64 : Shape := ⟨2, ![32768, 64]⟩
abbrev S1x64 : Shape := ⟨2, ![1, 64]⟩
abbrev S32768x70 : Shape := ⟨2, ![32768, 70]⟩
abbrev S32768x512 : Shape := ⟨2, ![32768, 512]⟩
abbrev S1x512 : Shape := ⟨2, ![1, 512]⟩
abbrev S32768x2 : Shape := ⟨2, ![32768, 2]⟩
abbrev S1x2 : Shape := ⟨2, ![1, 2]⟩

abbrev nBuf : Space → Nat
  | .hbm => 95
  | .vmem => 0
  | .smem => 0
  | _ => 0

abbrev bufTy : (tb : Table) → Fin (tcTables nBuf tb) → BufTy
  | .hbm, ⟨0, _⟩ => ⟨S32768x468x3, .f32⟩
  | .hbm, ⟨1, _⟩ => ⟨S1404x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S70x512, .f32⟩
  | .hbm, ⟨8, _⟩ => ⟨S512, .f32⟩
  | .hbm, ⟨9, _⟩ => ⟨S512x2, .f32⟩
  | .hbm, ⟨10, _⟩ => ⟨S2, .f32⟩
  | .hbm, ⟨11, _⟩ => ⟨S32768x1x3, .f32⟩
  | .hbm, ⟨12, _⟩ => ⟨S32768x3, .f32⟩
  | .hbm, ⟨13, _⟩ => ⟨S32768x1x3, .f32⟩
  | .hbm, ⟨14, _⟩ => ⟨S32768x3, .f32⟩
  | .hbm, ⟨15, _⟩ => ⟨S32768x1x3, .f32⟩
  | .hbm, ⟨16, _⟩ => ⟨S32768x3, .f32⟩
  | .hbm, ⟨17, _⟩ => ⟨S32768x1x3, .f32⟩
  | .hbm, ⟨18, _⟩ => ⟨S32768x3, .f32⟩
  | .hbm, ⟨19, _⟩ => ⟨S32768x1x3, .f32⟩
  | .hbm, ⟨20, _⟩ => ⟨S32768x3, .f32⟩
  | .hbm, ⟨21, _⟩ => ⟨S32768x1x3, .f32⟩
  | .hbm, ⟨22, _⟩ => ⟨S32768x3, .f32⟩
  | .hbm, ⟨23, _⟩ => ⟨S32768x3, .f32⟩
  | .hbm, ⟨24, _⟩ => ⟨S_, .f32⟩
  | .hbm, ⟨25, _⟩ => ⟨S32768x3, .f32⟩
  | .hbm, ⟨26, _⟩ => ⟨S32768x3, .f32⟩
  | .hbm, ⟨27, _⟩ => ⟨S32768x1, .f32⟩
  | .hbm, ⟨28, _⟩ => ⟨S32768, .f32⟩
  | .hbm, ⟨29, _⟩ => ⟨S32768x1, .f32⟩
  | .hbm, ⟨30, _⟩ => ⟨S32768, .f32⟩
  | .hbm, ⟨31, _⟩ => ⟨S32768, .f32⟩
  | .hbm, ⟨32, _⟩ => ⟨S32768x1, .f32⟩
  | .hbm, ⟨33, _⟩ => ⟨S32768, .f32⟩
  | .hbm, ⟨34, _⟩ => ⟨S32768x1, .f32⟩
  | .hbm, ⟨35, _⟩ => ⟨S32768, .f32⟩
  | .hbm, ⟨36, _⟩ => ⟨S32768, .f32⟩
  | .hbm, ⟨37, _⟩ => ⟨S32768x1, .f32⟩
  | .hbm, ⟨38, _⟩ => ⟨S32768, .f32⟩
  | .hbm, ⟨39, _⟩ => ⟨S32768x1, .f32⟩
  | .hbm, ⟨40, _⟩ => ⟨S32768, .f32⟩
  | .hbm, ⟨41, _⟩ => ⟨S32768, .f32⟩
  | .hbm, ⟨42, _⟩ => ⟨S32768x1, .f32⟩
  | .hbm, ⟨43, _⟩ => ⟨S32768, .f32⟩
  | .hbm, ⟨44, _⟩ => ⟨S32768x1, .f32⟩
  | .hbm, ⟨45, _⟩ => ⟨S32768, .f32⟩
  | .hbm, ⟨46, _⟩ => ⟨S32768, .f32⟩
  | .hbm, ⟨47, _⟩ => ⟨S32768x1, .f32⟩
  | .hbm, ⟨48, _⟩ => ⟨S32768, .f32⟩
  | .hbm, ⟨49, _⟩ => ⟨S32768x1, .f32⟩
  | .hbm, ⟨50, _⟩ => ⟨S32768, .f32⟩
  | .hbm, ⟨51, _⟩ => ⟨S32768, .f32⟩
  | .hbm, ⟨52, _⟩ => ⟨S32768x1, .f32⟩
  | .hbm, ⟨53, _⟩ => ⟨S32768, .f32⟩
  | .hbm, ⟨54, _⟩ => ⟨S32768x1, .f32⟩
  | .hbm, ⟨55, _⟩ => ⟨S32768, .f32⟩
  | .hbm, ⟨56, _⟩ => ⟨S32768, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x6, .f32⟩
  | .hbm, ⟨64, _⟩ => ⟨S32768x1404, .f32⟩
  | .hbm, ⟨65, _⟩ => ⟨S32768x256, .f32⟩
  | .hbm, ⟨66, _⟩ => ⟨S1x256, .f32⟩
  | .hbm, ⟨67, _⟩ => ⟨S32768x256, .f32⟩
  | .hbm, ⟨68, _⟩ => ⟨S32768x256, .f32⟩
  | .hbm, ⟨69, _⟩ => ⟨S_, .f32⟩
  | .hbm, ⟨70, _⟩ => ⟨S32768x256, .f32⟩
  | .hbm, ⟨71, _⟩ => ⟨S32768x256, .f32⟩
  | .hbm, ⟨72, _⟩ => ⟨S32768x128, .f32⟩
  | .hbm, ⟨73, _⟩ => ⟨S1x128, .f32⟩
  | .hbm, ⟨74, _⟩ => ⟨S32768x128, .f32⟩
  | .hbm, ⟨75, _⟩ => ⟨S32768x128, .f32⟩
  | .hbm, ⟨76, _⟩ => ⟨S_, .f32⟩
  | .hbm, ⟨77, _⟩ => ⟨S32768x128, .f32⟩
  | .hbm, ⟨78, _⟩ => ⟨S32768x128, .f32⟩
  | .hbm, ⟨79, _⟩ => ⟨S32768x64, .f32⟩
  | .hbm, ⟨80, _⟩ => ⟨S1x64, .f32⟩
  | .hbm, ⟨81, _⟩ => ⟨S32768x64, .f32⟩
  | .hbm, ⟨82, _⟩ => ⟨S32768x64, .f32⟩
  | .hbm, ⟨83, _⟩ => ⟨S32768x70, .f32⟩
  | .hbm, ⟨84, _⟩ => ⟨S32768x512, .f32⟩
  | .hbm, ⟨85, _⟩ => ⟨S1x512, .f32⟩
  | .hbm, ⟨86, _⟩ => ⟨S32768x512, .f32⟩
  | .hbm, ⟨87, _⟩ => ⟨S32768x512, .f32⟩
  | .hbm, ⟨88, _⟩ => ⟨S_, .f32⟩
  | .hbm, ⟨89, _⟩ => ⟨S32768x512, .f32⟩
  | .hbm, ⟨90, _⟩ => ⟨S32768x512, .f32⟩
  | .hbm, ⟨91, _⟩ => ⟨S32768x2, .f32⟩
  | .hbm, ⟨92, _⟩ => ⟨S1x2, .f32⟩
  | .hbm, ⟨93, _⟩ => ⟨S32768x2, .f32⟩
  | .hbm, ⟨94, _⟩ => ⟨S32768x2, .f32⟩
  | _, _ => ⟨S32768x468x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_cst : Ref sig .tc := ⟨.hbm, 69, rfl⟩
abbrev main_call0_v0 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call1_cst : Ref sig .tc := ⟨.hbm, 76, rfl⟩
abbrev main_call1_v0 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call2_cst : Ref sig .tc := ⟨.hbm, 88, rfl⟩
abbrev main_call2_v0 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]

class Facts₀ : Prop where
  slices_S32768x468x3_S32768x1x3_0_1_0 : S32768x468x3.Slices ![0, 1, 0] S32768x1x3
  shapeCasts_S32768x1x3_S32768x3 : S32768x1x3.ShapeCasts S32768x3
  slices_S32768x468x3_S32768x1x3_0_33_0 : S32768x468x3.Slices ![0, 33, 0] S32768x1x3
  slices_S32768x468x3_S32768x1x3_0_263_0 : S32768x468x3.Slices ![0, 263, 0] S32768x1x3
  slices_S32768x468x3_S32768x1x3_0_61_0 : S32768x468x3.Slices ![0, 61, 0] S32768x1x3
  slices_S32768x468x3_S32768x1x3_0_291_0 : S32768x468x3.Slices ![0, 291, 0] S32768x1x3
  slices_S32768x468x3_S32768x1x3_0_18_0 : S32768x468x3.Slices ![0, 18, 0] S32768x1x3
  bcast_S_S32768x3 : S_.BroadcastsInDim S32768x3 (![] : Fin 0 → Fin S32768x3.rank)
  slices_S32768x3_S32768x1_0_0 : S32768x3.Slices ![0, 0] S32768x1
  shapeCasts_S32768x1_S32768 : S32768x1.ShapeCasts S32768
  slices_S32768x3_S32768x1_0_1 : S32768x3.Slices ![0, 1] S32768x1
  slices_S32768x3_S32768x1_0_2 : S32768x3.Slices ![0, 2] S32768x1
  bcast_S32768_S32768x1_0 : S32768.BroadcastsInDim S32768x1 (![0] : Fin 1 → Fin S32768x1.rank)
  concatenates_S32768x1_S32768x1_S32768x1_S32768x1_S32768x1_S32768x1_S32768x6_d1 : Shape.Concatenates [S32768x1, S32768x1, S32768x1, S32768x1, S32768x1, S32768x1] S32768x6 1
  shapeCasts_S32768x468x3_S32768x1404 : S32768x468x3.ShapeCasts S32768x1404
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  concatenates_S32768x64_S32768x6_S32768x70_d1 : Shape.Concatenates [S32768x64, S32768x6] S32768x70 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  dot_S32768x1404_S1404x256_S32768x256_1_0_0_1_n_n_wf : DotDims.WF S32768x1404 S1404x256 S32768x256 [1] [0] [0] [1] [] []
  dot_S32768x256_S256x128_S32768x128_1_0_0_1_n_n_wf : DotDims.WF S32768x256 S256x128 S32768x128 [1] [0] [0] [1] [] []
  dot_S32768x128_S128x64_S32768x64_1_0_0_1_n_n_wf : DotDims.WF S32768x128 S128x64 S32768x64 [1] [0] [0] [1] [] []
  dot_S32768x70_S70x512_S32768x512_1_0_0_1_n_n_wf : DotDims.WF S32768x70 S70x512 S32768x512 [1] [0] [0] [1] [] []
  dot_S32768x512_S512x2_S32768x2_1_0_0_1_n_n_wf : DotDims.WF S32768x512 S512x2 S32768x2 [1] [0] [0] [1] [] []

variable [Facts₀]

def dot_S32768x1404_S1404x256_S32768x256_1_0_0_1_n_n : DotDims S32768x1404 S1404x256 S32768x256 where
  lhsContracting := [1]
  rhsContracting := [0]
  lhsNonContracting := [0]
  rhsNonContracting := [1]
  lhsBatch := []
  rhsBatch := []
  wf := dot_S32768x1404_S1404x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x128_S128x64_S32768x64_1_0_0_1_n_n : DotDims S32768x128 S128x64 S32768x64 where
  lhsContracting := [1]
  rhsContracting := [0]
  lhsNonContracting := [0]
  rhsNonContracting := [1]
  lhsBatch := []
  rhsBatch := []
  wf := dot_S32768x128_S128x64_S32768x64_1_0_0_1_n_n_wf
def dot_S32768x70_S70x512_S32768x512_1_0_0_1_n_n : DotDims S32768x70 S70x512 S32768x512 where
  lhsContracting := [1]
  rhsContracting := [0]
  lhsNonContracting := [0]
  rhsNonContracting := [1]
  lhsBatch := []
  rhsBatch := []
  wf := dot_S32768x70_S70x512_S32768x512_1_0_0_1_n_n_wf
def dot_S32768x512_S512x2_S32768x2_1_0_0_1_n_n : DotDims S32768x512 S512x2 S32768x2 where
  lhsContracting := [1]
  rhsContracting := [0]
  lhsNonContracting := [0]
  rhsNonContracting := [1]
  lhsBatch := []
  rhsBatch := []
  wf := dot_S32768x512_S512x2_S32768x2_1_0_0_1_n_n_wf

class Facts : Prop extends Facts₀ where

variable [Facts]
-- ==== Proof.KernelHost.lean ====
/-
  The host stretch of the kernel program as printed, up to its one launch.

  @main is 59 host operations followed by the launch: six landmark rows sliced out of the input, the eye
  midpoint, six coordinate differences set side by side as the six pose columns (one six-way concatenate),
  the landmark array flattened to [32768, 1404], and the five weight matrices narrowed to bf16. `V` names what
  every buffer of a core holds when the launch is reached: the fold of those operations over the memory the
  program was started in. None of the operations writes an argument array, so each argument is found as given.
-/
import proofs.«161893_j11553462026408_1_alg».proof.Proof.Gen.Kernel.Launch
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.Kernel Cert.Kernel.Gen

variable {F : FTy → Type} [FloatOps F]

variable (m : (ℓ : Loc nD τ sig) → Buf (Elt F) ℓ)

/-- What core `c`'s buffers hold when the launch is reached: the host operations folded over the start memory. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the launch, and the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 1: the launch finds it as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 2: the launch finds it as the program was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 3: the launch finds it as the program was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 4: the launch finds it as the program was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 5: the launch finds it as the program was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 6: the launch finds it as the program was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 7: the launch finds it as the program was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 8: the launch finds it as the program was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 9: the launch finds it as the program was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 10: the launch finds it as the program was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.Kernel.Hand

end
-- ==== Proof.KernelBody.lean ====
/-
  The kernel body's effect on its staging buffers, at either float instance.

  The body reads each of its twelve input blocks whole and writes each of its three output blocks once, whole:
  the 64 landmark features `lf = relu(relu(x·W1 + b1)·W2 + b2)·W3 + b3`, the 512 features
  `feat = relu([lf | pose]·Wf + bf)` and the 2 logits `out = feat·Wc + bc` of the block's 1024 rows. So after the
  body each output buffer holds the one value stored into it, a function of the input blocks; the input
  buffers are as found. (Each output buffer is also read once before its store; the value read is unused.)
-/
import proofs.«161893_j11553462026408_1_alg».proof.Proof.Gen.Kernel.Launch
import proofs.«161893_j11553462026408_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-block rectangles the body reads and writes through -/

abbrev rw0 : Rect S1024x1404 := Rect.unit (s := S1024x1404) ![0, 0] S1024x1404.size inb_S1024x1404_S1024x1404_0_0
abbrev rw1 : Rect S1024x6 := Rect.unit (s := S1024x6) ![0, 0] S1024x6.size inb_S1024x6_S1024x6_0_0
abbrev rw2 : Rect S1404x256 := Rect.unit (s := S1404x256) ![0, 0] S1404x256.size inb_S1404x256_S1404x256_0_0
abbrev rw3 : Rect S256 := Rect.unit (s := S256) ![0] S256.size inb_S256_S256_0
abbrev rw4 : Rect S256x128 := Rect.unit (s := S256x128) ![0, 0] S256x128.size inb_S256x128_S256x128_0_0
abbrev rw5 : Rect S128 := Rect.unit (s := S128) ![0] S128.size inb_S128_S128_0
abbrev rw6 : Rect S128x64 := Rect.unit (s := S128x64) ![0, 0] S128x64.size inb_S128x64_S128x64_0_0
abbrev rw7 : Rect S64 := Rect.unit (s := S64) ![0] S64.size inb_S64_S64_0
abbrev rw8 : Rect S70x512 := Rect.unit (s := S70x512) ![0, 0] S70x512.size inb_S70x512_S70x512_0_0
abbrev rw9 : Rect S512 := Rect.unit (s := S512) ![0] S512.size inb_S512_S512_0
abbrev rw10 : Rect S512x2 := Rect.unit (s := S512x2) ![0, 0] S512x2.size inb_S512x2_S512x2_0_0
abbrev rw11 : Rect S2 := Rect.unit (s := S2) ![0] S2.size inb_S2_S2_0
abbrev rw12 : Rect S1024x2 := Rect.unit (s := S1024x2) ![0, 0] S1024x2.size inb_S1024x2_S1024x2_0_0
abbrev rw13 : Rect S1024x512 := Rect.unit (s := S1024x512) ![0, 0] S1024x512.size inb_S1024x512_S1024x512_0_0
abbrev rw14 : Rect S1024x64 := Rect.unit (s := S1024x64) ![0, 0] S1024x64.size inb_S1024x64_S1024x64_0_0

/-! ## What the body leaves in each output buffer -/

/-- The logits block: `feat·Wc + bc`. -/
def out12 (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) (x10 : Vec F S512x2 .bf16) (x11 : Vec F S2 .f32) : Vec F S1024x2 .f32 :=
  View.canon [⟨rw12, k0_pay2 (k0_pay4 (View.ld x0 rw0) (View.ld x2 rw2) (View.ld x3 rw3) (View.ld x4 rw4) (View.ld x5 rw5) (View.ld x6 rw6) (View.ld x7 rw7) (View.ld x1 rw1)) (View.ld x8 rw8) (View.ld x9 rw9) (View.ld x10 rw10) (View.ld x11 rw11)⟩]

/-- The feature block: `relu([lf | pose]·Wf + bf)`. -/
def out13 (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) : Vec F S1024x512 .f32 :=
  View.canon [⟨rw13, k0_pay1 (k0_pay4 (View.ld x0 rw0) (View.ld x2 rw2) (View.ld x3 rw3) (View.ld x4 rw4) (View.ld x5 rw5) (View.ld x6 rw6) (View.ld x7 rw7) (View.ld x1 rw1)) (View.ld x8 rw8) (View.ld x9 rw9)⟩]

/-- The landmark-feature block: `relu(relu(x·W1 + b1)·W2 + b2)·W3 + b3`. -/
def out14 (x0 : Vec F S1024x1404 .f32) (x2 : Vec F S1404x256 .bf16) (x3 : Vec F S256 .f32) (x4 : Vec F S256x128 .bf16) (x5 : Vec F S128 .f32) (x6 : Vec F S128x64 .bf16) (x7 : Vec F S64 .f32) : Vec F S1024x64 .f32 :=
  View.canon [⟨rw14, k0_pay3 (View.ld x0 rw0) (View.ld x2 rw2) (View.ld x3 rw3) (View.ld x4 rw4) (View.ld x5 rw5) (View.ld x6 rw6) (View.ld x7 rw7)⟩]

/-- One whole-block store covers its buffer. -/
theorem cover12 (p0 : Vec F S1024x2 .f32) (y : S1024x2.Idx) :
    ∃ pc ∈ ([⟨rw12, p0⟩] : List (View.Piece (Elt F) S1024x2 .f32)), y ∈ pc.1.set :=
  View.cover_of_tiled [⟨rw12, p0⟩] S1024x2.size (by rfl) y
theorem cover13 (p0 : Vec F S1024x512 .f32) (y : S1024x512.Idx) :
    ∃ pc ∈ ([⟨rw13, p0⟩] : List (View.Piece (Elt F) S1024x512 .f32)), y ∈ pc.1.set :=
  View.cover_of_tiled [⟨rw13, p0⟩] S1024x512.size (by rfl) y
theorem cover14 (p0 : Vec F S1024x64 .f32) (y : S1024x64.Idx) :
    ∃ pc ∈ ([⟨rw14, p0⟩] : List (View.Piece (Elt F) S1024x64 .f32)), y ∈ pc.1.set :=
  View.cover_of_tiled [⟨rw14, p0⟩] S1024x64.size (by rfl) y

/-! ## The body's triple -/

set_option maxHeartbeats 4000000 in
/-- On whole staging buffers, the inputs' at contents `x·` and the outputs' at anything, the body runs to a
    state holding the inputs' as they were and each output's at the value stored into it. -/
theorem sound_kernel (c : Dev nD) (E : Set ℕ) (i : grid0.Coords) (arg1 : Memref sig .tc .vmem S1024x1404 .f32) (harg1 : arg1.IsWhole) (arg2 : Memref sig .tc .vmem S1024x6 .f32) (harg2 : arg2.IsWhole) (arg3 : Memref sig .tc .vmem S1404x256 .bf16) (harg3 : arg3.IsWhole) (arg4 : Memref sig .tc .vmem S256 .f32) (harg4 : arg4.IsWhole) (arg5 : Memref sig .tc .vmem S256x128 .bf16) (harg5 : arg5.IsWhole) (arg6 : Memref sig .tc .vmem S128 .f32) (harg6 : arg6.IsWhole) (arg7 : Memref sig .tc .vmem S128x64 .bf16) (harg7 : arg7.IsWhole) (arg8 : Memref sig .tc .vmem S64 .f32) (harg8 : arg8.IsWhole) (arg9 : Memref sig .tc .vmem S70x512 .bf16) (harg9 : arg9.IsWhole) (arg10 : Memref sig .tc .vmem S512 .f32) (harg10 : arg10.IsWhole) (arg11 : Memref sig .tc .vmem S512x2 .bf16) (harg11 : arg11.IsWhole) (arg12 : Memref sig .tc .vmem S2 .f32) (harg12 : arg12.IsWhole) (arg13 : Memref sig .tc .vmem S1024x2 .f32) (harg13 : arg13.IsWhole) (arg14 : Memref sig .tc .vmem S1024x512 .f32) (harg14 : arg14.IsWhole) (arg15 : Memref sig .tc .vmem S1024x64 .f32) (harg15 : arg15.IsWhole)
    (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) (x10 : Vec F S512x2 .bf16) (x11 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11) ∗ owns (c : Thread nD τ) arg14 fullShare (out13 x0 x1 x2 x3 x4 x5 x6 x7 x8 x9) ∗ owns (c : Thread nD τ) arg15 fullShare (out14 x0 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover12 _)
  isplitl [H13]
  · iexists _; isplitr
    swap; · iexact H13
    ipureintro
    exact View.read_writes_eq_canon _ _ _ (cover13 _)
  iexists _; isplitr
  swap; · iexact H14
  ipureintro
  exact View.read_writes_eq_canon _ _ _ (cover14 _)

end Cert.Kernel.Hand

end
-- ==== Proof.KernelRun.lean ====
/-
  The kernel program as printed runs to its end, and where it ends.

  The launch visits 32 grid points; at point `t` the two batch-blocked inputs (the flattened landmarks and the
  pose columns) are at rows `1024·t … 1024·t + 1023`, the ten weight and bias windows at their one block, and
  the body writes the three output blocks of those rows. The proof data say exactly that: each input buffer
  holds its block of the array as the launch found it (`iblk`), each output buffer the body's value of the
  input blocks. With the body's triple at a generic point this gives the launch theorem's run: every array a
  window stages ends at what the write-backs make of it, every other buffer as the launch found it. Read at the
  argument arrays, that is the frame claim.
-/
import proofs.«161893_j11553462026408_1_alg».proof.Proof.KernelHost
import proofs.«161893_j11553462026408_1_alg».proof.Proof.KernelBody
import proofs.«161893_j11553462026408_1_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not (where it is not fetched the
    block index has not moved), for any proof data over the launch's arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the launch theorem's post -/

/-- In a state the launch theorem's post holds of, every argument array is as the program was given it: a staged
    one because an input window's array is never written back, the others because they bypass the launch. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).2 main_arg9 (Pipeline.mem_restRefs_of main_arg9 (by decide) (by decide))).trans (V_main_arg9 m c),
      ((h c).1 11).trans (((dats 0 c).arrAt_in 11 rfl _).trans ((hA c 11).trans (V_main_arg10 m c)))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out14 (iblk m c 0 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after14 (c : Dev nD) (t : Fin cfg0.N) : (dats m 0 c).after 14 t = out14 (iblk m c 0 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealHost.lean ====
/-
  The host stretch of the idealized kernel program, up to its one launch.

  @main is 59 host operations followed by the launch: six landmark rows sliced out of the input, the eye
  midpoint, six coordinate differences set side by side as the six pose columns (one six-way concatenate),
  the landmark array flattened to [32768, 1404], and the five weight matrices narrowed to bf16. `V` names what
  every buffer of a core holds when the launch is reached: the fold of those operations over the memory the
  program was started in. None of the operations writes an argument array, so each argument is found as given.
-/
import proofs.«161893_j11553462026408_1_alg».proof.Proof.Gen.KernelIdeal.Launch
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.KernelIdeal Cert.KernelIdeal.Gen

variable {F : FTy → Type} [FloatOps F]

variable (m : (ℓ : Loc nD τ sig) → Buf (Elt F) ℓ)

/-- What core `c`'s buffers hold when the launch is reached: the host operations folded over the start memory. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the launch, and the launch finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 1: the launch finds it as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 2: the launch finds it as the program was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 3: the launch finds it as the program was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 4: the launch finds it as the program was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 5: the launch finds it as the program was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 6: the launch finds it as the program was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 7: the launch finds it as the program was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 8: the launch finds it as the program was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 9: the launch finds it as the program was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation before the launch writes argument 10: the launch finds it as the program was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.KernelIdeal.Hand

end
-- ==== Proof.KernelIdealBody.lean ====
/-
  The kernel body's effect on its staging buffers, at either float instance.

  The body reads each of its twelve input blocks whole and writes each of its three output blocks once, whole:
  the 64 landmark features `lf = relu(relu(x·W1 + b1)·W2 + b2)·W3 + b3`, the 512 features
  `feat = relu([lf | pose]·Wf + bf)` and the 2 logits `out = feat·Wc + bc` of the block's 1024 rows. So after the
  body each output buffer holds the one value stored into it, a function of the input blocks; the input
  buffers are as found. (Each output buffer is also read once before its store; the value read is unused.)
-/
import proofs.«161893_j11553462026408_1_alg».proof.Proof.Gen.KernelIdeal.Launch
import proofs.«161893_j11553462026408_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-block rectangles the body reads and writes through -/

abbrev rw0 : Rect S1024x1404 := Rect.unit (s := S1024x1404) ![0, 0] S1024x1404.size inb_S1024x1404_S1024x1404_0_0
abbrev rw1 : Rect S1024x6 := Rect.unit (s := S1024x6) ![0, 0] S1024x6.size inb_S1024x6_S1024x6_0_0
abbrev rw2 : Rect S1404x256 := Rect.unit (s := S1404x256) ![0, 0] S1404x256.size inb_S1404x256_S1404x256_0_0
abbrev rw3 : Rect S256 := Rect.unit (s := S256) ![0] S256.size inb_S256_S256_0
abbrev rw4 : Rect S256x128 := Rect.unit (s := S256x128) ![0, 0] S256x128.size inb_S256x128_S256x128_0_0
abbrev rw5 : Rect S128 := Rect.unit (s := S128) ![0] S128.size inb_S128_S128_0
abbrev rw6 : Rect S128x64 := Rect.unit (s := S128x64) ![0, 0] S128x64.size inb_S128x64_S128x64_0_0
abbrev rw7 : Rect S64 := Rect.unit (s := S64) ![0] S64.size inb_S64_S64_0
abbrev rw8 : Rect S70x512 := Rect.unit (s := S70x512) ![0, 0] S70x512.size inb_S70x512_S70x512_0_0
abbrev rw9 : Rect S512 := Rect.unit (s := S512) ![0] S512.size inb_S512_S512_0
abbrev rw10 : Rect S512x2 := Rect.unit (s := S512x2) ![0, 0] S512x2.size inb_S512x2_S512x2_0_0
abbrev rw11 : Rect S2 := Rect.unit (s := S2) ![0] S2.size inb_S2_S2_0
abbrev rw12 : Rect S1024x2 := Rect.unit (s := S1024x2) ![0, 0] S1024x2.size inb_S1024x2_S1024x2_0_0
abbrev rw13 : Rect S1024x512 := Rect.unit (s := S1024x512) ![0, 0] S1024x512.size inb_S1024x512_S1024x512_0_0
abbrev rw14 : Rect S1024x64 := Rect.unit (s := S1024x64) ![0, 0] S1024x64.size inb_S1024x64_S1024x64_0_0

/-! ## What the body leaves in each output buffer -/

/-- The logits block: `feat·Wc + bc`. -/
def out12 (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) (x10 : Vec F S512x2 .bf16) (x11 : Vec F S2 .f32) : Vec F S1024x2 .f32 :=
  View.canon [⟨rw12, k0_pay2 (k0_pay4 (View.ld x0 rw0) (View.ld x2 rw2) (View.ld x3 rw3) (View.ld x4 rw4) (View.ld x5 rw5) (View.ld x6 rw6) (View.ld x7 rw7) (View.ld x1 rw1)) (View.ld x8 rw8) (View.ld x9 rw9) (View.ld x10 rw10) (View.ld x11 rw11)⟩]

/-- The feature block: `relu([lf | pose]·Wf + bf)`. -/
def out13 (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) : Vec F S1024x512 .f32 :=
  View.canon [⟨rw13, k0_pay1 (k0_pay4 (View.ld x0 rw0) (View.ld x2 rw2) (View.ld x3 rw3) (View.ld x4 rw4) (View.ld x5 rw5) (View.ld x6 rw6) (View.ld x7 rw7) (View.ld x1 rw1)) (View.ld x8 rw8) (View.ld x9 rw9)⟩]

/-- The landmark-feature block: `relu(relu(x·W1 + b1)·W2 + b2)·W3 + b3`. -/
def out14 (x0 : Vec F S1024x1404 .f32) (x2 : Vec F S1404x256 .bf16) (x3 : Vec F S256 .f32) (x4 : Vec F S256x128 .bf16) (x5 : Vec F S128 .f32) (x6 : Vec F S128x64 .bf16) (x7 : Vec F S64 .f32) : Vec F S1024x64 .f32 :=
  View.canon [⟨rw14, k0_pay3 (View.ld x0 rw0) (View.ld x2 rw2) (View.ld x3 rw3) (View.ld x4 rw4) (View.ld x5 rw5) (View.ld x6 rw6) (View.ld x7 rw7)⟩]

/-- One whole-block store covers its buffer. -/
theorem cover12 (p0 : Vec F S1024x2 .f32) (y : S1024x2.Idx) :
    ∃ pc ∈ ([⟨rw12, p0⟩] : List (View.Piece (Elt F) S1024x2 .f32)), y ∈ pc.1.set :=
  View.cover_of_tiled [⟨rw12, p0⟩] S1024x2.size (by rfl) y
theorem cover13 (p0 : Vec F S1024x512 .f32) (y : S1024x512.Idx) :
    ∃ pc ∈ ([⟨rw13, p0⟩] : List (View.Piece (Elt F) S1024x512 .f32)), y ∈ pc.1.set :=
  View.cover_of_tiled [⟨rw13, p0⟩] S1024x512.size (by rfl) y
theorem cover14 (p0 : Vec F S1024x64 .f32) (y : S1024x64.Idx) :
    ∃ pc ∈ ([⟨rw14, p0⟩] : List (View.Piece (Elt F) S1024x64 .f32)), y ∈ pc.1.set :=
  View.cover_of_tiled [⟨rw14, p0⟩] S1024x64.size (by rfl) y

/-! ## The body's triple -/

set_option maxHeartbeats 4000000 in
/-- On whole staging buffers, the inputs' at contents `x·` and the outputs' at anything, the body runs to a
    state holding the inputs' as they were and each output's at the value stored into it. -/
theorem sound_kernel (c : Dev nD) (E : Set ℕ) (i : grid0.Coords) (arg1 : Memref sig .tc .vmem S1024x1404 .f32) (harg1 : arg1.IsWhole) (arg2 : Memref sig .tc .vmem S1024x6 .f32) (harg2 : arg2.IsWhole) (arg3 : Memref sig .tc .vmem S1404x256 .bf16) (harg3 : arg3.IsWhole) (arg4 : Memref sig .tc .vmem S256 .f32) (harg4 : arg4.IsWhole) (arg5 : Memref sig .tc .vmem S256x128 .bf16) (harg5 : arg5.IsWhole) (arg6 : Memref sig .tc .vmem S128 .f32) (harg6 : arg6.IsWhole) (arg7 : Memref sig .tc .vmem S128x64 .bf16) (harg7 : arg7.IsWhole) (arg8 : Memref sig .tc .vmem S64 .f32) (harg8 : arg8.IsWhole) (arg9 : Memref sig .tc .vmem S70x512 .bf16) (harg9 : arg9.IsWhole) (arg10 : Memref sig .tc .vmem S512 .f32) (harg10 : arg10.IsWhole) (arg11 : Memref sig .tc .vmem S512x2 .bf16) (harg11 : arg11.IsWhole) (arg12 : Memref sig .tc .vmem S2 .f32) (harg12 : arg12.IsWhole) (arg13 : Memref sig .tc .vmem S1024x2 .f32) (harg13 : arg13.IsWhole) (arg14 : Memref sig .tc .vmem S1024x512 .f32) (harg14 : arg14.IsWhole) (arg15 : Memref sig .tc .vmem S1024x64 .f32) (harg15 : arg15.IsWhole)
    (x0 : Vec F S1024x1404 .f32) (x1 : Vec F S1024x6 .f32) (x2 : Vec F S1404x256 .bf16) (x3 : Vec F S256 .f32) (x4 : Vec F S256x128 .bf16) (x5 : Vec F S128 .f32) (x6 : Vec F S128x64 .bf16) (x7 : Vec F S64 .f32) (x8 : Vec F S70x512 .bf16) (x9 : Vec F S512 .f32) (x10 : Vec F S512x2 .bf16) (x11 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out12 x0 x1 x2 x3 x4 x5 x6 x7 x8 x9 x10 x11) ∗ owns (c : Thread nD τ) arg14 fullShare (out13 x0 x1 x2 x3 x4 x5 x6 x7 x8 x9) ∗ owns (c : Thread nD τ) arg15 fullShare (out14 x0 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover12 _)
  isplitl [H13]
  · iexists _; isplitr
    swap; · iexact H13
    ipureintro
    exact View.read_writes_eq_canon _ _ _ (cover13 _)
  iexists _; isplitr
  swap; · iexact H14
  ipureintro
  exact View.read_writes_eq_canon _ _ _ (cover14 _)

end Cert.KernelIdeal.Hand

end
-- ==== Proof.KernelIdealRun.lean ====
/-
  The idealized kernel program runs to its end, and where it ends.

  The launch visits 32 grid points; at point `t` the two batch-blocked inputs (the flattened landmarks and the
  pose columns) are at rows `1024·t … 1024·t + 1023`, the ten weight and bias windows at their one block, and
  the body writes the three output blocks of those rows. The proof data say exactly that: each input buffer
  holds its block of the array as the launch found it (`iblk`), each output buffer the body's value of the
  input blocks. With the body's triple at a generic point this gives the launch theorem's run: every array a
  window stages ends at what the write-backs make of it, every other buffer as the launch found it. Read at the
  argument arrays, that is the frame claim.
-/
import proofs.«161893_j11553462026408_1_alg».proof.Proof.KernelIdealHost
import proofs.«161893_j11553462026408_1_alg».proof.Proof.KernelIdealBody
import proofs.«161893_j11553462026408_1_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not (where it is not fetched the
    block index has not moved), for any proof data over the launch's arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the launch theorem's post -/

/-- In a state the launch theorem's post holds of, every argument array is as the program was given it: a staged
    one because an input window's array is never written back, the others because they bypass the launch. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).1 5).trans (((dats 0 c).arrAt_in 5 rfl _).trans ((hA c 5).trans (V_main_arg4 m c))),
      ((h c).2 main_arg5 (Pipeline.mem_restRefs_of main_arg5 (by decide) (by decide))).trans (V_main_arg5 m c),
      ((h c).1 7).trans (((dats 0 c).arrAt_in 7 rfl _).trans ((hA c 7).trans (V_main_arg6 m c))),
      ((h c).2 main_arg7 (Pipeline.mem_restRefs_of main_arg7 (by decide) (by decide))).trans (V_main_arg7 m c),
      ((h c).1 9).trans (((dats 0 c).arrAt_in 9 rfl _).trans ((hA c 9).trans (V_main_arg8 m c))),
      ((h c).2 main_arg9 (Pipeline.mem_restRefs_of main_arg9 (by decide) (by decide))).trans (V_main_arg9 m c),
      ((h c).1 11).trans (((dats 0 c).arrAt_in 11 rfl _).trans ((hA c 11).trans (V_main_arg10 m c)))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out14 (iblk m c 0 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = out12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after14 (c : Dev nD) (t : Fin cfg0.N) : (dats m 0 c).after 14 t = out14 (iblk m c 0 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.Spec.lean ====
/-
  The network on one row, over the extended reals.

  A sample is a row `x` of 1404 numbers (468 landmarks × 3 coordinates) and a row `p` of 6 pose numbers. A dense
  layer sends a row `a` to `j ↦ Σ_k a_k · w_{k j} + b_j`; `relu` is `max · 0`. The landmark features are three dense
  layers with `relu` after the first two (1404 → 256 → 128 → 64); the 70-row `[lf | p]` goes through a dense layer
  and `relu` to 512 features, and those through a last dense layer to 2 logits. Both programs compute exactly
  these functions of the row, so each is compared with them, index by index, and never with the other.
-/
import Idealize.ShloMosaic.Lib.ValueIdx

noncomputable section

namespace Cert.Mlp

open scoped BigOperators

/-- One dense layer on one row: `j ↦ Σ_k a_k · w_{k j} + b_j`. -/
def dense {K N : ℕ} (a : Fin K → EReal) (w : Fin K → Fin N → EReal) (b : Fin N → EReal) (j : Fin N) : EReal :=
  (∑ k : Fin K, a k * w k j) + b j

/-- `max x 0`. -/
def relu (x : EReal) : EReal := max x 0

/-- The 64 landmark features of a row: dense, relu, dense, relu, dense. -/
def lfRow (x : Fin 1404 → EReal) (W1 : Fin 1404 → Fin 256 → EReal) (b1 : Fin 256 → EReal)
    (W2 : Fin 256 → Fin 128 → EReal) (b2 : Fin 128 → EReal) (W3 : Fin 128 → Fin 64 → EReal) (b3 : Fin 64 → EReal) :
    Fin 64 → EReal :=
  dense (fun k => relu (dense (fun k => relu (dense x W1 b1 k)) W2 b2 k)) W3 b3

/-- The row `[lf | p]`: the 64 landmark features, then the 6 pose numbers. -/
def joinRow (lf : Fin 64 → EReal) (p : Fin 6 → EReal) (l : Fin 70) : EReal :=
  if h : l.val < 64 then lf ⟨l.val, h⟩ else p ⟨l.val - 64, by omega⟩

/-- The 512 features of a joined row: dense, relu. -/
def featRow (u : Fin 70 → EReal) (Wf : Fin 70 → Fin 512 → EReal) (bf : Fin 512 → EReal) (j : Fin 512) : EReal :=
  relu (dense u Wf bf j)

/-- The 2 logits of a feature row: dense. -/
def outRow (f : Fin 512 → EReal) (Wc : Fin 512 → Fin 2 → EReal) (bc : Fin 2 → EReal) : Fin 2 → EReal :=
  dense f Wc bc

/-! ## The three results as whole arrays

  Over a batch of 32768 rows: `X` the flattened landmarks, `P` the pose columns, the weights and biases as the
  arrays they are. Entry `(b, j)` of each result is the row function of row `b`. -/

open Idealize.ShloMosaic Idealize.ShloMosaic.ValueIdx

/-- A matrix as a function of its two coordinates. -/
abbrev mat {K N : ℕ} (w : (⟨2, ![K, N]⟩ : Shape).Idx → EReal) : Fin K → Fin N → EReal := fun k n => w (ix2 k n)
/-- A vector as a function of its coordinate. -/
abbrev vec {N : ℕ} (c : (⟨1, ![N]⟩ : Shape).Idx → EReal) : Fin N → EReal := fun n => c (ix1 n)
/-- Row `b` of a matrix. -/
abbrev row {B K : ℕ} (X : (⟨2, ![B, K]⟩ : Shape).Idx → EReal) (b : Fin B) : Fin K → EReal := fun k => X (ix2 b k)

/-- The landmark features of every row. -/
def lfArr (X : (⟨2, ![32768, 1404]⟩ : Shape).Idx → EReal)
    (w1 : (⟨2, ![1404, 256]⟩ : Shape).Idx → EReal) (c1 : (⟨1, ![256]⟩ : Shape).Idx → EReal)
    (w2 : (⟨2, ![256, 128]⟩ : Shape).Idx → EReal) (c2 : (⟨1, ![128]⟩ : Shape).Idx → EReal)
    (w3 : (⟨2, ![128, 64]⟩ : Shape).Idx → EReal) (c3 : (⟨1, ![64]⟩ : Shape).Idx → EReal) :
    (⟨2, ![32768, 64]⟩ : Shape).Idx → EReal :=
  fun i => lfRow (row X (i 0)) (mat w1) (vec c1) (mat w2) (vec c2) (mat w3) (vec c3) (i 1)

/-- The features of every row. -/
def featArr (X : (⟨2, ![32768, 1404]⟩ : Shape).Idx → EReal) (P : (⟨2, ![32768, 6]⟩ : Shape).Idx → EReal)
    (w1 : (⟨2, ![1404, 256]⟩ : Shape).Idx → EReal) (c1 : (⟨1, ![256]⟩ : Shape).Idx → EReal)
    (w2 : (⟨2, ![256, 128]⟩ : Shape).Idx → EReal) (c2 : (⟨1, ![128]⟩ : Shape).Idx → EReal)
    (w3 : (⟨2, ![128, 64]⟩ : Shape).Idx → EReal) (c3 : (⟨1, ![64]⟩ : Shape).Idx → EReal)
    (wf : (⟨2, ![70, 512]⟩ : Shape).Idx → EReal) (cf : (⟨1, ![512]⟩ : Shape).Idx → EReal) :
    (⟨2, ![32768, 512]⟩ : Shape).Idx → EReal :=
  fun i => featRow (joinRow (lfRow (row X (i 0)) (mat w1) (vec c1) (mat w2) (vec c2) (mat w3) (vec c3)) (row P (i 0)))
    (mat wf) (vec cf) (i 1)

/-- The logits of every row. -/
def outArr (X : (⟨2, ![32768, 1404]⟩ : Shape).Idx → EReal) (P : (⟨2, ![32768, 6]⟩ : Shape).Idx → EReal)
    (w1 : (⟨2, ![1404, 256]⟩ : Shape).Idx → EReal) (c1 : (⟨1, ![256]⟩ : Shape).Idx → EReal)
    (w2 : (⟨2, ![256, 128]⟩ : Shape).Idx → EReal) (c2 : (⟨1, ![128]⟩ : Shape).Idx → EReal)
    (w3 : (⟨2, ![128, 64]⟩ : Shape).Idx → EReal) (c3 : (⟨1, ![64]⟩ : Shape).Idx → EReal)
    (wf : (⟨2, ![70, 512]⟩ : Shape).Idx → EReal) (cf : (⟨1, ![512]⟩ : Shape).Idx → EReal)
    (wc : (⟨2, ![512, 2]⟩ : Shape).Idx → EReal) (cc : (⟨1, ![2]⟩ : Shape).Idx → EReal) :
    (⟨2, ![32768, 2]⟩ : Shape).Idx → EReal :=
  fun i => outRow (featRow (joinRow (lfRow (row X (i 0)) (mat w1) (vec c1) (mat w2) (vec c2) (mat w3) (vec c3)) (row P (i 0)))
    (mat wf) (vec cf)) (mat wc) (vec cc) (i 1)

end Cert.Mlp

end
-- ==== Proof.KernelPayLf.lean ====
/-
  The landmark-feature payloads of the idealized kernel, read at an index.

  At the extended reals the value the body stores into the landmark-feature block, at row r and column j, is
  the row function lfRow of row r of the landmark block: narrowing to bf16 is the identity, a matrix product
  into the zero accumulator is the plain sum over the contracted axis, and a bias is added along the row. The
  70-wide value handed on is that row joined with row r of the pose block.

  Each of the three layers is read the same way: the product at (r, j) is the sum over k of a (r, k) · w (k, j)
  (the contraction index is its one coordinate, and the operands' indices are (r, k) and (k, j)), the bias
  vector, cast to one row and repeated down the block, adds c j, and together they are the dense layer of
  row r. The maximum with the zero word between two layers is relu. The stated facts then follow layer by
  layer from the outside in, each inner row compared entry by entry.
-/
import proofs.«161893_j11553462026408_1_alg».proof.Proof.Gen.KernelIdeal.Skeleton
import proofs.«161893_j11553462026408_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx
open Cert.KernelIdeal Cert.KernelIdeal.Gen Cert.Mlp
open scoped BigOperators

/-! ## The first layer, 1404 → 256

  The product's two operand indices at an output index (r, j) and a contraction position k: the left one is
  (r, k), the right one (k, j). Axis by axis: the free axes copy the output's coordinates, the contracted axes
  read the position's one coordinate. -/

private theorem lhs_l1_0 (i : S1024x256.Idx) (q : dot_S1024x1404_S1404x256_S1024x256_1_0_0_1_n_n.contr.Idx) :
    (dot_S1024x1404_S1404x256_S1024x256_1_0_0_1_n_n.lhsIdx i q 0).val = (i 0).val := by
  unfold DotDims.lhsIdx
  rw [dif_neg (show ¬(0 : Fin S1024x1404.rank) ∈ dot_S1024x1404_S1404x256_S1024x256_1_0_0_1_n_n.lhsBatch by decide), dif_pos (show (0 : Fin S1024x1404.rank) ∈ dot_S1024x1404_S1404x256_S1024x256_1_0_0_1_n_n.lhsNonContracting by decide)]
  rfl
private theorem lhs_l1_1 (i : S1024x256.Idx) (q : dot_S1024x1404_S1404x256_S1024x256_1_0_0_1_n_n.contr.Idx) :
    (dot_S1024x1404_S1404x256_S1024x256_1_0_0_1_n_n.lhsIdx i q 1).val = (q ⟨0, by decide⟩).val :=
  dot_S1024x1404_S1404x256_S1024x256_1_0_0_1_n_n.lhsIdx_val_of_single rfl i q
private theorem rhs_l1_0 (i : S1024x256.Idx) (q : dot_S1024x1404_S1404x256_S1024x256_1_0_0_1_n_n.contr.Idx) :
    (dot_S1024x1404_S1404x256_S1024x256_1_0_0_1_n_n.rhsIdx i q 0).val = (q ⟨0, by decide⟩).val :=
  dot_S1024x1404_S1404x256_S1024x256_1_0_0_1_n_n.rhsIdx_val_of_single rfl i q
private theorem rhs_l1_1 (i : S1024x256.Idx) (q : dot_S1024x1404_S1404x256_S1024x256_1_0_0_1_n_n.contr.Idx) :
    (dot_S1024x1404_S1404x256_S1024x256_1_0_0_1_n_n.rhsIdx i q 1).val = (i 1).val := by
  unfold DotDims.rhsIdx
  rw [dif_neg (show ¬(1 : Fin S1404x256.rank) ∈ dot_S1024x1404_S1404x256_S1024x256_1_0_0_1_n_n.rhsBatch by decide), dif_pos (show (1 : Fin S1404x256.rank) ∈ dot_S1024x1404_S1404x256_S1024x256_1_0_0_1_n_n.rhsNonContracting by decide)]
  rfl

/-- The product into the zero accumulator, at (r, j): the sum over k of a (r, k) · w (k, j). -/
private theorem mm_l1_apply (a : FVec Ideal S1024x1404 .bf16) (w : FVec Ideal S1404x256 .bf16) (r : Fin 1024) (j : Fin 256) :
    matmul dot_S1024x1404_S1404x256_S1024x256_1_0_0_1_n_n none a w (constant (F := Ideal) S1024x256 .f32 0x00000000#32) (ix2 r j)
      = ∑ k : Fin 1404, a (ix2 r k) * w (ix2 k j) := by
  simp only [matmul]
  rw [Ideal.matmul_constant_zero_apply, ← Equiv.sum_comp (ValueIdx.contrEquiv1 dot_S1024x1404_S1404x256_S1024x256_1_0_0_1_n_n 1404 rfl rfl).symm]
  refine Finset.sum_congr rfl fun k _ => ?_
  have hk := ValueIdx.contrEquiv1_symm_val dot_S1024x1404_S1404x256_S1024x256_1_0_0_1_n_n 1404 rfl rfl k
  have el : dot_S1024x1404_S1404x256_S1024x256_1_0_0_1_n_n.lhsIdx (ix2 r j) ((ValueIdx.contrEquiv1 dot_S1024x1404_S1404x256_S1024x256_1_0_0_1_n_n 1404 rfl rfl).symm k) = ix2 r k := funext fun ax => Fin.ext (by
    match ax with
    | ⟨0, _⟩ => exact lhs_l1_0 _ _
    | ⟨1, _⟩ => exact (lhs_l1_1 _ _).trans hk)
  have er : dot_S1024x1404_S1404x256_S1024x256_1_0_0_1_n_n.rhsIdx (ix2 r j) ((ValueIdx.contrEquiv1 dot_S1024x1404_S1404x256_S1024x256_1_0_0_1_n_n 1404 rfl rfl).symm k) = ix2 k j := funext fun ax => Fin.ext (by
    match ax with
    | ⟨0, _⟩ => exact (rhs_l1_0 _ _).trans hk
    | ⟨1, _⟩ => exact rhs_l1_1 _ _)
  rw [el, er]

/-- The first dense layer as the body spells it (the weights through an identity cast, the bias as one row
    repeated down the block), at (r, j). -/
private theorem layer1_apply (a : FVec Ideal S1024x1404 .bf16) (w : Vec Ideal S1404x256 .bf16) (c : Vec Ideal S256 .f32) (r : Fin 1024) (j : Fin 256) :
    (addf (matmul dot_S1024x1404_S1404x256_S1024x256_1_0_0_1_n_n none a (shapeCast S1404x256 w shapeCasts_S1404x256_S1404x256 : FVec Ideal S1404x256 .bf16) (constant (F := Ideal) S1024x256 .f32 0x00000000#32))
      (broadcastTo S1024x256 (shapeCast S1x256 c shapeCasts_S256_S1x256 : FVec Ideal S1x256 .f32) broadcasts_S1x256_S1024x256)) (ix2 r j)
      = dense (row a r) (mat w) (vec c) j := by
  rw [addf_apply, shapeCast_self, mm_l1_apply, broadcastTo_1b_ab_apply, shapeCast_a_1a_apply]
  rfl

/-! ## The second layer, 256 → 128 -/

private theorem lhs_l2_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
private theorem lhs_l2_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
private theorem rhs_l2_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
private theorem rhs_l2_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- The product into the zero accumulator, at (r, j): the sum over k of a (r, k) · w (k, j). -/
private theorem mm_l2_apply (a : FVec Ideal S1024x256 .bf16) (w : FVec Ideal S256x128 .bf16) (r : Fin 1024) (j : Fin 128) :
    matmul dot_S1024x256_S256x128_S1024x128_1_0_0_1_n_n none a w (constant (F := Ideal) S1024x128 .f32 0x00000000#32) (ix2 r j)
      = ∑ k : Fin 256, a (ix2 r k) * w (ix2 k j) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 r j) ((ValueIdx.contrEquiv1 dot_S1024x256_S256x128_S1024x128_1_0_0_1_n_n 256 rfl rfl).symm k) = ix2 r k := funext fun ax => Fin.ext (by
    match ax with
    | ⟨0, _⟩ => exact lhs_l2_0 _ _
    | ⟨1, _⟩ => exact (lhs_l2_1 _ _).trans hk)
  have er : dot_S1024x256_S256x128_S1024x128_1_0_0_1_n_n.rhsIdx (ix2 r j) ((ValueIdx.contrEquiv1 dot_S1024x256_S256x128_S1024x128_1_0_0_1_n_n 256 rfl rfl).symm k) = ix2 k j := funext fun ax => Fin.ext (by
    match ax with
    | ⟨0, _⟩ => exact (rhs_l2_0 _ _).trans hk
    | ⟨1, _⟩ => exact rhs_l2_1 _ _)
  rw [el, er]

/-- The second dense layer as the body spells it, at (r, j). -/
private theorem layer2_apply (a : FVec Ideal S1024x256 .bf16) (w : Vec Ideal S256x128 .bf16) (c : Vec Ideal S128 .f32) (r : Fin 1024) (j : Fin 128) :
    (addf (matmul dot_S1024x256_S256x128_S1024x128_1_0_0_1_n_n none a (shapeCast S256x128 w shapeCasts_S256x128_S256x128 : FVec Ideal S256x128 .bf16) (constant (F := Ideal) S1024x128 .f32 0x00000000#32))
      (broadcastTo S1024x128 (shapeCast S1x128 c shapeCasts_S128_S1x128 : FVec Ideal S1x128 .f32) broadcasts_S1x128_S1024x128)) (ix2 r j)
      = dense (row a r) (mat w) (vec c) j := by
  rw [addf_apply, shapeCast_self, mm_l2_apply, broadcastTo_1b_ab_apply, shapeCast_a_1a_apply]
  rfl

/-! ## The third layer, 128 → 64 -/

private theorem lhs_l3_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
private theorem lhs_l3_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
private theorem rhs_l3_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
private theorem rhs_l3_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The product into the zero accumulator, at (r, j): the sum over k of a (r, k) · w (k, j). -/
private theorem mm_l3_apply (a : FVec Ideal S1024x128 .bf16) (w : FVec Ideal S128x64 .bf16) (r : Fin 1024) (j : Fin 64) :
    matmul dot_S1024x128_S128x64_S1024x64_1_0_0_1_n_n none a w (constant (F := Ideal) S1024x64 .f32 0x00000000#32) (ix2 r j)
      = ∑ k : Fin 128, a (ix2 r k) * w (ix2 k j) := by
  simp only [matmul]
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 r j) ((ValueIdx.contrEquiv1 dot_S1024x128_S128x64_S1024x64_1_0_0_1_n_n 128 rfl rfl).symm k) = ix2 r k := funext fun ax => Fin.ext (by
    match ax with
    | ⟨0, _⟩ => exact lhs_l3_0 _ _
    | ⟨1, _⟩ => exact (lhs_l3_1 _ _).trans hk)
  have er : dot_S1024x128_S128x64_S1024x64_1_0_0_1_n_n.rhsIdx (ix2 r j) ((ValueIdx.contrEquiv1 dot_S1024x128_S128x64_S1024x64_1_0_0_1_n_n 128 rfl rfl).symm k) = ix2 k j := funext fun ax => Fin.ext (by
    match ax with
    | ⟨0, _⟩ => exact (rhs_l3_0 _ _).trans hk
    | ⟨1, _⟩ => exact rhs_l3_1 _ _)
  rw [el, er]

/-- The third dense layer as the body spells it, at (r, j). -/
private theorem layer3_apply (a : FVec Ideal S1024x128 .bf16) (w : Vec Ideal S128x64 .bf16) (c : Vec Ideal S64 .f32) (r : Fin 1024) (j : Fin 64) :
    (addf (matmul dot_S1024x128_S128x64_S1024x64_1_0_0_1_n_n none a (shapeCast S128x64 w shapeCasts_S128x64_S128x64 : FVec Ideal S128x64 .bf16) (constant (F := Ideal) S1024x64 .f32 0x00000000#32))
      (broadcastTo S1024x64 (shapeCast S1x64 c shapeCasts_S64_S1x64 : FVec Ideal S1x64 .f32) broadcasts_S1x64_S1024x64)) (ix2 r j)
      = dense (row a r) (mat w) (vec c) j := by
  rw [addf_apply, shapeCast_self, mm_l3_apply, broadcastTo_1b_ab_apply, shapeCast_a_1a_apply]
  rfl

/-! ## Between the layers

  Narrowing to bf16 is the identity at the extended reals, so the value a layer hands to the next is the
  maximum of its sum with the zero word, which is relu of the sum. -/

/-- The narrowed maximum with the zero splat, at an index, is relu of the operand there. -/
private theorem relu_apply {s : Shape} (v : FVec Ideal s .f32) (i : s.Idx) :
    (truncf .bf16 (maximumf v (broadcast s (Scalar.ofBits (F := Ideal) .f32 0x00000000#32))) bitsLt_bf16_f32 : FVec Ideal s .bf16) i = relu (v i) := by
  rw [truncf_apply, maximumf_apply, broadcast_apply]
  show max (v i) (Ideal.ofBits .f32 0x00000000#32) = max (v i) 0
  rw [Ideal.ofBits_zero_f32]

theorem pay3_apply (x0 : Vec Ideal S1024x1404 .f32) (w1 : Vec Ideal S1404x256 .bf16) (c1 : Vec Ideal S256 .f32) (w2 : Vec Ideal S256x128 .bf16) (c2 : Vec Ideal S128 .f32) (w3 : Vec Ideal S128x64 .bf16) (c3 : Vec Ideal S64 .f32) (r : Fin 1024) (j : Fin 64) :
    k0_pay3 (F := Ideal) x0 w1 c1 w2 c2 w3 c3 (ix2 r j) = lfRow (row x0 r) (mat w1) (vec c1) (mat w2) (vec c2) (mat w3) (vec c3) j := by
  unfold k0_pay3 lfRow
  -- the third layer, on the row the second hands it
  refine (layer3_apply _ w3 c3 r j).trans ?_
  refine congrArg (fun f => dense f (mat w3) (vec c3) j) (funext fun k2 => ?_)
  refine (relu_apply _ (ix2 r k2)).trans (congrArg relu ?_)
  -- the second layer, on the row the first hands it
  refine (layer2_apply _ w2 c2 r k2).trans ?_
  refine congrArg (fun f => dense f (mat w2) (vec c2) k2) (funext fun k1 => ?_)
  refine (relu_apply _ (ix2 r k1)).trans (congrArg relu ?_)
  -- the first layer, on the narrowed row of the landmark block
  refine (layer1_apply _ w1 c1 r k1).trans ?_
  refine congrArg (fun f => dense f (mat w1) (vec c1) k1) (funext fun k0 => ?_)
  show (truncf .bf16 (shapeCast S1024x1404 x0 shapeCasts_S1024x1404_S1024x1404 : FVec Ideal S1024x1404 .f32) bitsLt_bf16_f32 : FVec Ideal S1024x1404 .bf16) (ix2 r k0) = x0 (ix2 r k0)
  rw [truncf_apply, shapeCast_self]

/-! ## The joined row

  Along the second axis the 70-wide value is the 64 narrowed features followed by the 6 narrowed pose numbers. -/

/-- Below column 64 the joined value reads its left piece. -/
private theorem join_left (u : FVec Ideal S1024x64 .bf16) (v : FVec Ideal S1024x6 .bf16) (r : Fin 1024) (l : Fin 70) (h : l.val < 64) :
    concatenate S1024x70 1 [⟨S1024x64, u⟩, ⟨S1024x6, v⟩] concatenates_S1024x64_S1024x6_S1024x70_d1 (ix2 r l) = u (ix2 r ⟨l.val, h⟩) := by
  refine concatenate_pair_apply_left (1 : Fin S1024x70.rank) u v concatenates_S1024x64_S1024x6_S1024x70_d1 (ix2 r l) rfl (ix2 r ⟨l.val, h⟩) fun b => ?_
  match b with
  | ⟨0, _⟩ => rfl
  | ⟨1, _⟩ => rfl

/-- From column 64 on it reads its right piece, 64 columns back. -/
private theorem join_right (u : FVec Ideal S1024x64 .bf16) (v : FVec Ideal S1024x6 .bf16) (r : Fin 1024) (l : Fin 70) (h : ¬ l.val < 64) :
    concatenate S1024x70 1 [⟨S1024x64, u⟩, ⟨S1024x6, v⟩] concatenates_S1024x64_S1024x6_S1024x70_d1 (ix2 r l) = v (ix2 r ⟨l.val - 64, by omega⟩) := by
  refine concatenate_pair_apply_right (1 : Fin S1024x70.rank) u v concatenates_S1024x64_S1024x6_S1024x70_d1 (ix2 r l) rfl rfl (ix2 r ⟨l.val - 64, by omega⟩) (fun b hb => ?_) ?_
  · match b with
    | ⟨0, _⟩ => rfl
    | ⟨1, _⟩ => exact absurd rfl hb
  · show l.val - 64 + 64 = l.val
    omega

theorem pay4_apply (x0 : Vec Ideal S1024x1404 .f32) (w1 : Vec Ideal S1404x256 .bf16) (c1 : Vec Ideal S256 .f32) (w2 : Vec Ideal S256x128 .bf16) (c2 : Vec Ideal S128 .f32) (w3 : Vec Ideal S128x64 .bf16) (c3 : Vec Ideal S64 .f32) (x1 : Vec Ideal S1024x6 .f32) (r : Fin 1024) (l : Fin 70) :
    k0_pay4 (F := Ideal) x0 w1 c1 w2 c2 w3 c3 x1 (ix2 r l) = joinRow (lfRow (row x0 r) (mat w1) (vec c1) (mat w2) (vec c2) (mat w3) (vec c3)) (row x1 r) l := by
  unfold k0_pay4 joinRow
  by_cases h : l.val < 64
  · rw [dif_pos h]
    refine (join_left _ _ r l h).trans ?_
    rw [truncf_apply]
    exact pay3_apply x0 w1 c1 w2 c2 w3 c3 r ⟨l.val, h⟩
  · rw [dif_neg h]
    refine (join_right _ _ r l h).trans ?_
    rw [truncf_apply, shapeCast_self]

end Cert.KernelIdeal.Pay

end
-- ==== Proof.KernelPayFeat.lean ====
/-
  The feature and logit payloads of the idealized kernel, read at an index.

  At the extended reals the value stored into the feature block, at row `r` and column `j`, is `featRow` of row `r`
  of the 70-wide joined value, and the value stored into the logit block is `outRow` of that feature row.

  Each payload is a dense layer written as a matrix product into the zero accumulator plus a bias row broadcast down
  the 1024 rows. Read at `(r, j)` the product is the sum `Σ_k a_{r k} · w_{k j}` over the one contracted axis: the
  contraction index has a single coordinate, so the sum over it is re-indexed to a sum over `Fin K`, and the operand
  indices at `(r, j)` and position `k` are `(r, k)` on the left and `(k, j)` on the right. The bias row at `(r, j)`
  is `c_j`. The format changes are the identity at the extended reals, the zero word is `0`, and the maximum with the
  zero splat is `relu`. The logit payload contracts the feature payload itself, so its left operand at `(r, k)` is
  the feature row's entry `k`.
-/
import proofs.«161893_j11553462026408_1_alg».proof.Proof.Gen.KernelIdeal.Skeleton
import proofs.«161893_j11553462026408_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx
open Cert.KernelIdeal Cert.KernelIdeal.Gen Cert.Mlp
open scoped BigOperators

/-! ## The feature layer, 70 → 512 -/

/-- The left operand's row coordinate is the output's row. -/
private theorem lhs_feat_0 (i : S1024x512.Idx) (q : dot_S1024x70_S70x512_S1024x512_1_0_0_1_n_n.contr.Idx) :
    (dot_S1024x70_S70x512_S1024x512_1_0_0_1_n_n.lhsIdx i q 0).val = (i 0).val := by
  unfold DotDims.lhsIdx
  rw [dif_neg (show ¬(0 : Fin S1024x70.rank) ∈ dot_S1024x70_S70x512_S1024x512_1_0_0_1_n_n.lhsBatch by decide), dif_pos (show (0 : Fin S1024x70.rank) ∈ dot_S1024x70_S70x512_S1024x512_1_0_0_1_n_n.lhsNonContracting by decide)]
  rfl
/-- The left operand's column coordinate is the contraction position. -/
private theorem lhs_feat_1 (i : S1024x512.Idx) (q : dot_S1024x70_S70x512_S1024x512_1_0_0_1_n_n.contr.Idx) :
    (dot_S1024x70_S70x512_S1024x512_1_0_0_1_n_n.lhsIdx i q 1).val = (q ⟨0, by decide⟩).val :=
  dot_S1024x70_S70x512_S1024x512_1_0_0_1_n_n.lhsIdx_val_of_single rfl i q
/-- The right operand's row coordinate is the contraction position. -/
private theorem rhs_feat_0 (i : S1024x512.Idx) (q : dot_S1024x70_S70x512_S1024x512_1_0_0_1_n_n.contr.Idx) :
    (dot_S1024x70_S70x512_S1024x512_1_0_0_1_n_n.rhsIdx i q 0).val = (q ⟨0, by decide⟩).val :=
  dot_S1024x70_S70x512_S1024x512_1_0_0_1_n_n.rhsIdx_val_of_single rfl i q
/-- The right operand's column coordinate is the output's column. -/
private theorem rhs_feat_1 (i : S1024x512.Idx) (q : dot_S1024x70_S70x512_S1024x512_1_0_0_1_n_n.contr.Idx) :
    (dot_S1024x70_S70x512_S1024x512_1_0_0_1_n_n.rhsIdx i q 1).val = (i 1).val := by
  unfold DotDims.rhsIdx
  rw [dif_neg (show ¬(1 : Fin S70x512.rank) ∈ dot_S1024x70_S70x512_S1024x512_1_0_0_1_n_n.rhsBatch by decide), dif_pos (show (1 : Fin S70x512.rank) ∈ dot_S1024x70_S70x512_S1024x512_1_0_0_1_n_n.rhsNonContracting by decide)]
  rfl

/-- The product into the zero accumulator, at `(r, j)`: `Σ_k a_{r k} · w_{k j}` over the 70 contracted positions. -/
private theorem mm_feat (a : FVec Ideal S1024x70 .bf16) (w : FVec Ideal S70x512 .bf16) (r : Fin 1024) (j : Fin 512) :
    matmul dot_S1024x70_S70x512_S1024x512_1_0_0_1_n_n none a w (constant (F := Ideal) S1024x512 .f32 0x00000000#32) (ix2 r j)
      = ∑ k : Fin 70, a (ix2 r k) * w (ix2 k j) := by
  simp only [matmul]
  rw [Ideal.matmul_constant_zero_apply, ← Equiv.sum_comp (ValueIdx.contrEquiv1 dot_S1024x70_S70x512_S1024x512_1_0_0_1_n_n 70 rfl rfl).symm]
  refine Finset.sum_congr rfl fun k _ => ?_
  have hk := ValueIdx.contrEquiv1_symm_val dot_S1024x70_S70x512_S1024x512_1_0_0_1_n_n 70 rfl rfl k
  have el : dot_S1024x70_S70x512_S1024x512_1_0_0_1_n_n.lhsIdx (ix2 r j) ((ValueIdx.contrEquiv1 dot_S1024x70_S70x512_S1024x512_1_0_0_1_n_n 70 rfl rfl).symm k) = ix2 r k := funext fun x => Fin.ext (by
    match x with
    | ⟨0, _⟩ => exact lhs_feat_0 _ _
    | ⟨1, _⟩ => exact (lhs_feat_1 _ _).trans hk)
  have er : dot_S1024x70_S70x512_S1024x512_1_0_0_1_n_n.rhsIdx (ix2 r j) ((ValueIdx.contrEquiv1 dot_S1024x70_S70x512_S1024x512_1_0_0_1_n_n 70 rfl rfl).symm k) = ix2 k j := funext fun x => Fin.ext (by
    match x with
    | ⟨0, _⟩ => exact (rhs_feat_0 _ _).trans hk
    | ⟨1, _⟩ => exact rhs_feat_1 _ _)
  rw [el, er]

/-- The feature layer before its `relu`, at `(r, j)`: the dense layer of row `r` of `a`. The weight's cast is between equal shapes; the bias, cast to one row and broadcast down the rows, reads `c_j`. -/
private theorem layer_feat (a : FVec Ideal S1024x70 .bf16) (w : FVec Ideal S70x512 .bf16) (c : FVec Ideal S512 .f32) (r : Fin 1024) (j : Fin 512) :
    (addf (matmul dot_S1024x70_S70x512_S1024x512_1_0_0_1_n_n none a (shapeCast S70x512 w shapeCasts_S70x512_S70x512) (constant (F := Ideal) S1024x512 .f32 0x00000000#32))
      (broadcastTo S1024x512 (shapeCast S1x512 c shapeCasts_S512_S1x512) broadcasts_S1x512_S1024x512)) (ix2 r j)
      = dense (row a r) (mat w) (vec c) j := by
  rw [addf_apply, shapeCast_self, mm_feat, broadcastTo_1b_ab_apply, shapeCast_a_1a_apply]
  rfl

/-! ## The logit layer, 512 → 2 -/

/-- The left operand's row coordinate is the output's row. -/
private theorem lhs_out_0 (i : S1024x2.Idx) (q : dot_S1024x512_S512x2_S1024x2_1_0_0_1_n_n.contr.Idx) :
    (dot_S1024x512_S512x2_S1024x2_1_0_0_1_n_n.lhsIdx i q 0).val = (i 0).val := by
  unfold DotDims.lhsIdx
  rw [dif_neg (show ¬(0 : Fin S1024x512.rank) ∈ dot_S1024x512_S512x2_S1024x2_1_0_0_1_n_n.lhsBatch by decide), dif_pos (show (0 : Fin S1024x512.rank) ∈ dot_S1024x512_S512x2_S1024x2_1_0_0_1_n_n.lhsNonContracting by decide)]
  rfl
/-- The left operand's column coordinate is the contraction position. -/
private theorem lhs_out_1 (i : S1024x2.Idx) (q : dot_S1024x512_S512x2_S1024x2_1_0_0_1_n_n.contr.Idx) :
    (dot_S1024x512_S512x2_S1024x2_1_0_0_1_n_n.lhsIdx i q 1).val = (q ⟨0, by decide⟩).val :=
  dot_S1024x512_S512x2_S1024x2_1_0_0_1_n_n.lhsIdx_val_of_single rfl i q
/-- The right operand's row coordinate is the contraction position. -/
private theorem rhs_out_0 (i : S1024x2.Idx) (q : dot_S1024x512_S512x2_S1024x2_1_0_0_1_n_n.contr.Idx) :
    (dot_S1024x512_S512x2_S1024x2_1_0_0_1_n_n.rhsIdx i q 0).val = (q ⟨0, by decide⟩).val :=
  dot_S1024x512_S512x2_S1024x2_1_0_0_1_n_n.rhsIdx_val_of_single rfl i q
/-- The right operand's column coordinate is the output's column. -/
private theorem rhs_out_1 (i : S1024x2.Idx) (q : dot_S1024x512_S512x2_S1024x2_1_0_0_1_n_n.contr.Idx) :
    (dot_S1024x512_S512x2_S1024x2_1_0_0_1_n_n.rhsIdx i q 1).val = (i 1).val := by
  unfold DotDims.rhsIdx
  rw [dif_neg (show ¬(1 : Fin S512x2.rank) ∈ dot_S1024x512_S512x2_S1024x2_1_0_0_1_n_n.rhsBatch by decide), dif_pos (show (1 : Fin S512x2.rank) ∈ dot_S1024x512_S512x2_S1024x2_1_0_0_1_n_n.rhsNonContracting by decide)]
  rfl

/-- The product into the zero accumulator, at `(r, j)`: `Σ_k a_{r k} · w_{k j}` over the 512 contracted positions. -/
private theorem mm_out (a : FVec Ideal S1024x512 .bf16) (w : FVec Ideal S512x2 .bf16) (r : Fin 1024) (j : Fin 2) :
    matmul dot_S1024x512_S512x2_S1024x2_1_0_0_1_n_n none a w (constant (F := Ideal) S1024x2 .f32 0x00000000#32) (ix2 r j)
      = ∑ k : Fin 512, a (ix2 r k) * w (ix2 k j) := by
  simp only [matmul]
  rw [Ideal.matmul_constant_zero_apply, ← Equiv.sum_comp (ValueIdx.contrEquiv1 dot_S1024x512_S512x2_S1024x2_1_0_0_1_n_n 512 rfl rfl).symm]
  refine Finset.sum_congr rfl fun k _ => ?_
  have hk := ValueIdx.contrEquiv1_symm_val dot_S1024x512_S512x2_S1024x2_1_0_0_1_n_n 512 rfl rfl k
  have el : dot_S1024x512_S512x2_S1024x2_1_0_0_1_n_n.lhsIdx (ix2 r j) ((ValueIdx.contrEquiv1 dot_S1024x512_S512x2_S1024x2_1_0_0_1_n_n 512 rfl rfl).symm k) = ix2 r k := funext fun x => Fin.ext (by
    match x with
    | ⟨0, _⟩ => exact lhs_out_0 _ _
    | ⟨1, _⟩ => exact (lhs_out_1 _ _).trans hk)
  have er : dot_S1024x512_S512x2_S1024x2_1_0_0_1_n_n.rhsIdx (ix2 r j) ((ValueIdx.contrEquiv1 dot_S1024x512_S512x2_S1024x2_1_0_0_1_n_n 512 rfl rfl).symm k) = ix2 k j := funext fun x => Fin.ext (by
    match x with
    | ⟨0, _⟩ => exact (rhs_out_0 _ _).trans hk
    | ⟨1, _⟩ => exact rhs_out_1 _ _)
  rw [el, er]

/-- The logit layer at `(r, j)`: the dense layer of row `r` of `a`. The weight's cast is between equal shapes; the bias, cast to one row and broadcast down the rows, reads `c_j`. -/
private theorem layer_out (a : FVec Ideal S1024x512 .bf16) (w : FVec Ideal S512x2 .bf16) (c : FVec Ideal S2 .f32) (r : Fin 1024) (j : Fin 2) :
    (addf (matmul dot_S1024x512_S512x2_S1024x2_1_0_0_1_n_n none a (shapeCast S512x2 w shapeCasts_S512x2_S512x2) (constant (F := Ideal) S1024x2 .f32 0x00000000#32))
      (broadcastTo S1024x2 (shapeCast S1x2 c shapeCasts_S2_S1x2) broadcasts_S1x2_S1024x2)) (ix2 r j)
      = dense (row a r) (mat w) (vec c) j := by
  rw [addf_apply, shapeCast_self, mm_out, broadcastTo_1b_ab_apply, shapeCast_a_1a_apply]
  rfl

/-! ## The two payloads -/

/-- The scalar zero word is the extended real `0`. -/
private theorem zero_word : (Scalar.ofBits .f32 0x00000000#32 : Ideal .f32) = (0 : EReal) := Ideal.ofBits_zero_f32

theorem pay1_apply (u : FVec Ideal S1024x70 .bf16) (wf : Vec Ideal S70x512 .bf16) (cf : Vec Ideal S512 .f32) (r : Fin 1024) (j : Fin 512) :
    k0_pay1 (F := Ideal) u wf cf (ix2 r j) = featRow (row u r) (mat wf) (vec cf) j := by
  unfold k0_pay1
  rw [maximumf_apply, broadcast_apply, zero_word]
  exact congrArg (fun x : EReal => max x 0) (layer_feat u wf cf r j)

theorem pay2_apply (u : FVec Ideal S1024x70 .bf16) (wf : Vec Ideal S70x512 .bf16) (cf : Vec Ideal S512 .f32) (wc : Vec Ideal S512x2 .bf16) (cc : Vec Ideal S2 .f32) (r : Fin 1024) (j : Fin 2) :
    k0_pay2 (F := Ideal) u wf cf wc cc (ix2 r j) = outRow (featRow (row u r) (mat wf) (vec cf)) (mat wc) (vec cc) j := by
  unfold k0_pay2
  refine (layer_out (truncf .bf16 (k0_pay1 (F := Ideal) u wf cf) bitsLt_bf16_f32) wc cc r j).trans ?_
  unfold outRow
  refine congrArg (fun f : Fin 512 → EReal => dense f (mat wc) (vec cc) j) (funext fun k => ?_)
  exact pay1_apply u wf cf r k

end Cert.KernelIdeal.Pay

end
-- ==== Proof.KernelIdealFinal.lean ====
/-
  From the blocks the body writes to the arrays the program returns, at the extended reals.

  Point `t` of the 32-point grid handles rows `1024·t … 1024·t + 1023`: its landmark and pose blocks are those rows
  of the flattened landmark array and of the pose columns, the ten weight and bias windows stage their whole
  arrays, and the three output blocks it writes back are those rows of the results. The body's stored values
  at row `r` are the row functions of row `r` of its blocks, hence of row `1024·t + r` of the arrays; every row
  of a result lies in exactly the block of the point `⌊row / 1024⌋`; so each result array ends at the whole-array
  specification of what the launch found. The run is then re-posted with its four results named.
-/
import proofs.«161893_j11553462026408_1_alg».proof.Proof.KernelIdealRun
import proofs.«161893_j11553462026408_1_alg».proof.Proof.KernelPayLf
import proofs.«161893_j11553462026408_1_alg».proof.Proof.KernelPayFeat
import proofs.«161893_j11553462026408_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Pay Cert.Mlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The grid has 32 points. -/
theorem point_lt (t : Fin cfg0.N) : t.val < 32 := lt_of_lt_of_eq t.isLt N_0

/-- Row `r` of point `t` is row `1024·t + r` of the batch. -/
def rowOf (t : Fin cfg0.N) (r : Fin 1024) : Fin 32768 := ⟨t.val * 1024 + r.val, by have := point_lt t; have := r.isLt; omega⟩

theorem rowOf_val (t : Fin cfg0.N) (r : Fin 1024) : (rowOf t r).val = t.val * 1024 + r.val := rfl

/-! ## The index maps, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-! ## The input blocks -/

/-- Row `r` of point `t`'s block of window 0 is row `1024·t + r` of its array. -/
theorem blk0_row (c : Dev nD) (t : Fin cfg0.N) (r : Fin 1024) :
    row (iblk m c 0 t : S1024x1404.Idx → EReal) r = row (V m c main_v52 : S32768x1404.Idx → EReal) (rowOf t r) := by
  funext k
  show V m c main_v52 (((cfg0.win 0).blk t).view.emb (ix2 r k)) = V m c main_v52 (ix2 (rowOf t r) k)
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_0.index t (0 : Fin 2) * 1024 + 1 * r.val = t.val * 1024 + r.val; omega
    | ⟨1, _⟩ => show win0_0.index t (1 : Fin 2) * 1404 + 1 * k.val = k.val; omega

/-- Row `r` of point `t`'s block of window 1 is row `1024·t + r` of its array. -/
theorem blk1_row (c : Dev nD) (t : Fin cfg0.N) (r : Fin 1024) :
    row (iblk m c 1 t : S1024x6.Idx → EReal) r = row (V m c main_v51 : S32768x6.Idx → EReal) (rowOf t r) := by
  funext k
  show V m c main_v51 (((cfg0.win 1).blk t).view.emb (ix2 r k)) = V m c main_v51 (ix2 (rowOf t r) k)
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_1.index t (0 : Fin 2) * 1024 + 1 * r.val = t.val * 1024 + r.val; omega
    | ⟨1, _⟩ => show win0_1.index t (1 : Fin 2) * 6 + 1 * k.val = k.val; omega

/-- Window 2 stages its whole array at every point. -/
theorem blk2_eq (c : Dev nD) (t : Fin cfg0.N) : (iblk m c 2 t : S1404x256.Idx → EReal) = V m c main_v53 := by
  funext y
  show V m c main_v53 (((cfg0.win 2).blk t).view.emb y) = V m c main_v53 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_2.index t (0 : Fin 2) * 1404 + 1 * (y 0).val = (y 0).val; omega
    | ⟨1, _⟩ => show win0_2.index t (1 : Fin 2) * 256 + 1 * (y 1).val = (y 1).val; omega

/-- Window 3 stages its whole array at every point. -/
theorem blk3_eq (c : Dev nD) (t : Fin cfg0.N) : (iblk m c 3 t : S256.Idx → EReal) = V m c main_arg2 := by
  funext y
  show V m c main_arg2 (((cfg0.win 3).blk t).view.emb y) = V m c main_arg2 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_3.index t (0 : Fin 1) * 256 + 1 * (y 0).val = (y 0).val; omega

/-- Window 4 stages its whole array at every point. -/
theorem blk4_eq (c : Dev nD) (t : Fin cfg0.N) : (iblk m c 4 t : S256x128.Idx → EReal) = V m c main_v54 := by
  funext y
  show V m c main_v54 (((cfg0.win 4).blk t).view.emb y) = V m c main_v54 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_4.index t (0 : Fin 2) * 256 + 1 * (y 0).val = (y 0).val; omega
    | ⟨1, _⟩ => show win0_4.index t (1 : Fin 2) * 128 + 1 * (y 1).val = (y 1).val; omega

/-- Window 5 stages its whole array at every point. -/
theorem blk5_eq (c : Dev nD) (t : Fin cfg0.N) : (iblk m c 5 t : S128.Idx → EReal) = V m c main_arg4 := by
  funext y
  show V m c main_arg4 (((cfg0.win 5).blk t).view.emb y) = V m c main_arg4 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_5.index t (0 : Fin 1) * 128 + 1 * (y 0).val = (y 0).val; omega

/-- Window 6 stages its whole array at every point. -/
theorem blk6_eq (c : Dev nD) (t : Fin cfg0.N) : (iblk m c 6 t : S128x64.Idx → EReal) = V m c main_v55 := by
  funext y
  show V m c main_v55 (((cfg0.win 6).blk t).view.emb y) = V m c main_v55 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_6.index t (0 : Fin 2) * 128 + 1 * (y 0).val = (y 0).val; omega
    | ⟨1, _⟩ => show win0_6.index t (1 : Fin 2) * 64 + 1 * (y 1).val = (y 1).val; omega

/-- Window 7 stages its whole array at every point. -/
theorem blk7_eq (c : Dev nD) (t : Fin cfg0.N) : (iblk m c 7 t : S64.Idx → EReal) = V m c main_arg6 := by
  funext y
  show V m c main_arg6 (((cfg0.win 7).blk t).view.emb y) = V m c main_arg6 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_7.index t (0 : Fin 1) * 64 + 1 * (y 0).val = (y 0).val; omega

/-- Window 8 stages its whole array at every point. -/
theorem blk8_eq (c : Dev nD) (t : Fin cfg0.N) : (iblk m c 8 t : S70x512.Idx → EReal) = V m c main_v56 := by
  funext y
  show V m c main_v56 (((cfg0.win 8).blk t).view.emb y) = V m c main_v56 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_8.index t (0 : Fin 2) * 70 + 1 * (y 0).val = (y 0).val; omega
    | ⟨1, _⟩ => show win0_8.index t (1 : Fin 2) * 512 + 1 * (y 1).val = (y 1).val; omega

/-- Window 9 stages its whole array at every point. -/
theorem blk9_eq (c : Dev nD) (t : Fin cfg0.N) : (iblk m c 9 t : S512.Idx → EReal) = V m c main_arg8 := by
  funext y
  show V m c main_arg8 (((cfg0.win 9).blk t).view.emb y) = V m c main_arg8 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_9.index t (0 : Fin 1) * 512 + 1 * (y 0).val = (y 0).val; omega

/-- Window 10 stages its whole array at every point. -/
theorem blk10_eq (c : Dev nD) (t : Fin cfg0.N) : (iblk m c 10 t : S512x2.Idx → EReal) = V m c main_v57 := by
  funext y
  show V m c main_v57 (((cfg0.win 10).blk t).view.emb y) = V m c main_v57 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_10.index t (0 : Fin 2) * 512 + 1 * (y 0).val = (y 0).val; omega
    | ⟨1, _⟩ => show win0_10.index t (1 : Fin 2) * 2 + 1 * (y 1).val = (y 1).val; omega

/-- Window 11 stages its whole array at every point. -/
theorem blk11_eq (c : Dev nD) (t : Fin cfg0.N) : (iblk m c 11 t : S2.Idx → EReal) = V m c main_arg10 := by
  funext y
  show V m c main_arg10 (((cfg0.win 11).blk t).view.emb y) = V m c main_arg10 y
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine congrArg _ (funext fun a => Fin.ext ?_)
  match a with
    | ⟨0, _⟩ => show win0_11.index t (0 : Fin 1) * 2 + 1 * (y 0).val = (y 0).val; omega

/-! ## The output blocks: where they sit, and that they tile the arrays -/

/-- Entry `(r, j)` of point `t`'s block of output window 12 is entry `(1024·t + r, j)` of its array. -/
theorem emb12 (t : Fin cfg0.N) (r : Fin 1024) (j : Fin 2) :
    (((cfg0.win 12).blk t).view.emb (ix2 r j) : S32768x2.Idx) = ix2 (rowOf t r) j := by
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine funext fun a => Fin.ext ?_
  match a with
    | ⟨0, _⟩ => show win0_12.index t (0 : Fin 2) * 1024 + 1 * r.val = t.val * 1024 + r.val; omega
    | ⟨1, _⟩ => show win0_12.index t (1 : Fin 2) * 2 + 1 * j.val = j.val; omega

/-- An index of the array is in point `t`'s block iff each coordinate is in the block's range on its axis. -/
theorem mem_blk12 (t : Fin cfg0.N) (i : S32768x2.Idx) :
    i ∈ ((cfg0.win 12).blk t).view.set ↔ ∀ a : Fin 2, win0_12.index t a * S1024x2.size a ≤ (i a).val ∧ (i a).val < win0_12.index t a * S1024x2.size a + S1024x2.size a := by
  show i ∈ ((View.whole main_v58_0).slice (win0_12.rect t)).set ↔ _
  rw [View.set_slice_whole, Rect.mem_set_unit]
  exact Iff.rfl

/-- Every row of the array lies in the block of the point `⌊row / 1024⌋`. -/
theorem tiles12 (i : S32768x2.Idx) : ∃ t : Fin cfg0.N, (cfg0.win 12).flush t = true ∧ i ∈ ((cfg0.win 12).blk t).view.set := by
  have hi0 : (i 0).val < 32768 := (i 0).isLt
  have hi1 : (i 1).val < 2 := (i 1).isLt
  let t : Fin cfg0.N := ⟨(i 0).val / 1024, by show (i 0).val / 1024 < 32; omega⟩
  have ht : t.val = (i 0).val / 1024 := rfl
  refine ⟨t, flush0_12 t, ?_⟩
  rw [mem_blk12]
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  intro a
  match a with
    | ⟨0, _⟩ => show win0_12.index t (0 : Fin 2) * 1024 ≤ (i 0).val ∧ (i 0).val < win0_12.index t (0 : Fin 2) * 1024 + 1024; omega
    | ⟨1, _⟩ => show win0_12.index t (1 : Fin 2) * 2 ≤ (i 1).val ∧ (i 1).val < win0_12.index t (1 : Fin 2) * 2 + 2; omega

/-- Entry `(r, j)` of point `t`'s block of output window 13 is entry `(1024·t + r, j)` of its array. -/
theorem emb13 (t : Fin cfg0.N) (r : Fin 1024) (j : Fin 512) :
    (((cfg0.win 13).blk t).view.emb (ix2 r j) : S32768x512.Idx) = ix2 (rowOf t r) j := by
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine funext fun a => Fin.ext ?_
  match a with
    | ⟨0, _⟩ => show win0_13.index t (0 : Fin 2) * 1024 + 1 * r.val = t.val * 1024 + r.val; omega
    | ⟨1, _⟩ => show win0_13.index t (1 : Fin 2) * 512 + 1 * j.val = j.val; omega

/-- An index of the array is in point `t`'s block iff each coordinate is in the block's range on its axis. -/
theorem mem_blk13 (t : Fin cfg0.N) (i : S32768x512.Idx) :
    i ∈ ((cfg0.win 13).blk t).view.set ↔ ∀ a : Fin 2, win0_13.index t a * S1024x512.size a ≤ (i a).val ∧ (i a).val < win0_13.index t a * S1024x512.size a + S1024x512.size a := by
  show i ∈ ((View.whole main_v58_1).slice (win0_13.rect t)).set ↔ _
  rw [View.set_slice_whole, Rect.mem_set_unit]
  exact Iff.rfl

/-- Every row of the array lies in the block of the point `⌊row / 1024⌋`. -/
theorem tiles13 (i : S32768x512.Idx) : ∃ t : Fin cfg0.N, (cfg0.win 13).flush t = true ∧ i ∈ ((cfg0.win 13).blk t).view.set := by
  have hi0 : (i 0).val < 32768 := (i 0).isLt
  have hi1 : (i 1).val < 512 := (i 1).isLt
  let t : Fin cfg0.N := ⟨(i 0).val / 1024, by show (i 0).val / 1024 < 32; omega⟩
  have ht : t.val = (i 0).val / 1024 := rfl
  refine ⟨t, flush0_13 t, ?_⟩
  rw [mem_blk13]
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  intro a
  match a with
    | ⟨0, _⟩ => show win0_13.index t (0 : Fin 2) * 1024 ≤ (i 0).val ∧ (i 0).val < win0_13.index t (0 : Fin 2) * 1024 + 1024; omega
    | ⟨1, _⟩ => show win0_13.index t (1 : Fin 2) * 512 ≤ (i 1).val ∧ (i 1).val < win0_13.index t (1 : Fin 2) * 512 + 512; omega

/-- Entry `(r, j)` of point `t`'s block of output window 14 is entry `(1024·t + r, j)` of its array. -/
theorem emb14 (t : Fin cfg0.N) (r : Fin 1024) (j : Fin 64) :
    (((cfg0.win 14).blk t).view.emb (ix2 r j) : S32768x64.Idx) = ix2 (rowOf t r) j := by
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  refine funext fun a => Fin.ext ?_
  match a with
    | ⟨0, _⟩ => show win0_14.index t (0 : Fin 2) * 1024 + 1 * r.val = t.val * 1024 + r.val; omega
    | ⟨1, _⟩ => show win0_14.index t (1 : Fin 2) * 64 + 1 * j.val = j.val; omega

/-- An index of the array is in point `t`'s block iff each coordinate is in the block's range on its axis. -/
theorem mem_blk14 (t : Fin cfg0.N) (i : S32768x64.Idx) :
    i ∈ ((cfg0.win 14).blk t).view.set ↔ ∀ a : Fin 2, win0_14.index t a * S1024x64.size a ≤ (i a).val ∧ (i a).val < win0_14.index t a * S1024x64.size a + S1024x64.size a := by
  show i ∈ ((View.whole main_v58_2).slice (win0_14.rect t)).set ↔ _
  rw [View.set_slice_whole, Rect.mem_set_unit]
  exact Iff.rfl

/-- Every row of the array lies in the block of the point `⌊row / 1024⌋`. -/
theorem tiles14 (i : S32768x64.Idx) : ∃ t : Fin cfg0.N, (cfg0.win 14).flush t = true ∧ i ∈ ((cfg0.win 14).blk t).view.set := by
  have hi0 : (i 0).val < 32768 := (i 0).isLt
  have hi1 : (i 1).val < 64 := (i 1).isLt
  let t : Fin cfg0.N := ⟨(i 0).val / 1024, by show (i 0).val / 1024 < 32; omega⟩
  have ht : t.val = (i 0).val / 1024 := rfl
  refine ⟨t, flush0_14 t, ?_⟩
  rw [mem_blk14]
  obtain ⟨e0_0, e0_1, e1_0, e1_1, e2_0, e2_1, e3_0, e4_0, e4_1, e5_0, e6_0, e6_1, e7_0, e8_0, e8_1, e9_0, e10_0, e10_1, e11_0, e12_0, e12_1, e13_0, e13_1, e14_0, e14_1⟩ := idx_facts t
  intro a
  match a with
    | ⟨0, _⟩ => show win0_14.index t (0 : Fin 2) * 1024 ≤ (i 0).val ∧ (i 0).val < win0_14.index t (0 : Fin 2) * 1024 + 1024; omega
    | ⟨1, _⟩ => show win0_14.index t (1 : Fin 2) * 64 ≤ (i 1).val ∧ (i 1).val < win0_14.index t (1 : Fin 2) * 64 + 64; omega

/-! ## What each point writes back -/

theorem flushed14_eq (c : Dev nD) (t : Fin cfg0.N) :
    (dats m 0 c).flushed 14 t = ((cfg0.win 14).blk t).view.read (Elt Ideal) (lfArr (V m c main_v52) (V m c main_v53) (V m c main_arg2) (V m c main_v54) (V m c main_arg4) (V m c main_v55) (V m c main_arg6)) := by
  show (cfg0.win 14).cut (grid0.coords t) ((dats m 0 c).after 14 t) = _
  rw [after14]
  unfold out14
  rw [View.canon_unit_zero hz2]
  simp only [View.ld_unit_zero (S := S1024x1404) hz2, View.ld_unit_zero (S := S1404x256) hz2, View.ld_unit_zero (S := S256) hz1, View.ld_unit_zero (S := S256x128) hz2, View.ld_unit_zero (S := S128) hz1, View.ld_unit_zero (S := S128x64) hz2, View.ld_unit_zero (S := S64) hz1]
  funext y
  obtain ⟨r, j, rfl⟩ : ∃ (r : Fin 1024) (j : Fin 64), y = ix2 r j := ⟨y 0, y 1, eq_ix2 y⟩
  show k0_pay3 (F := Ideal) (iblk m c 0 t) (iblk m c 2 t) (iblk m c 3 t) (iblk m c 4 t) (iblk m c 5 t) (iblk m c 6 t) (iblk m c 7 t) (ix2 r j) = lfArr (V m c main_v52) (V m c main_v53) (V m c main_arg2) (V m c main_v54) (V m c main_arg4) (V m c main_v55) (V m c main_arg6) (((cfg0.win 14).blk t).view.emb (ix2 r j))
  rw [emb14]
  refine (pay3_apply (iblk m c 0 t) (iblk m c 2 t) (iblk m c 3 t) (iblk m c 4 t) (iblk m c 5 t) (iblk m c 6 t) (iblk m c 7 t) r j).trans ?_
  show lfRow (row (iblk m c 0 t) r) (mat (iblk m c 2 t)) (vec (iblk m c 3 t)) (mat (iblk m c 4 t)) (vec (iblk m c 5 t)) (mat (iblk m c 6 t)) (vec (iblk m c 7 t)) j
    = lfRow (row (V m c main_v52) (rowOf t r)) (mat (V m c main_v53)) (vec (V m c main_arg2)) (mat (V m c main_v54)) (vec (V m c main_arg4)) (mat (V m c main_v55)) (vec (V m c main_arg6)) j
  rw [blk0_row, blk2_eq, blk3_eq, blk4_eq, blk5_eq, blk6_eq, blk7_eq]

theorem flushed13_eq (c : Dev nD) (t : Fin cfg0.N) :
    (dats m 0 c).flushed 13 t = ((cfg0.win 13).blk t).view.read (Elt Ideal) (featArr (V m c main_v52) (V m c main_v51) (V m c main_v53) (V m c main_arg2) (V m c main_v54) (V m c main_arg4) (V m c main_v55) (V m c main_arg6) (V m c main_v56) (V m c main_arg8)) := by
  show (cfg0.win 13).cut (grid0.coords t) ((dats m 0 c).after 13 t) = _
  rw [after13]
  unfold out13
  rw [View.canon_unit_zero hz2]
  simp only [View.ld_unit_zero (S := S1024x1404) hz2, View.ld_unit_zero (S := S1024x6) hz2, View.ld_unit_zero (S := S1404x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S70x512) hz2, View.ld_unit_zero (S := S512) hz1]
  funext y
  obtain ⟨r, j, rfl⟩ : ∃ (r : Fin 1024) (j : Fin 512), y = ix2 r j := ⟨y 0, y 1, eq_ix2 y⟩
  show k0_pay1 (F := Ideal) (k0_pay4 (F := Ideal) (iblk m c 0 t) (iblk m c 2 t) (iblk m c 3 t) (iblk m c 4 t) (iblk m c 5 t) (iblk m c 6 t) (iblk m c 7 t) (iblk m c 1 t)) (iblk m c 8 t) (iblk m c 9 t) (ix2 r j)
    = featArr (V m c main_v52) (V m c main_v51) (V m c main_v53) (V m c main_arg2) (V m c main_v54) (V m c main_arg4) (V m c main_v55) (V m c main_arg6) (V m c main_v56) (V m c main_arg8) (((cfg0.win 13).blk t).view.emb (ix2 r j))
  rw [emb13]
  refine (pay1_apply _ (iblk m c 8 t) (iblk m c 9 t) r j).trans ?_
  have hu : row (k0_pay4 (F := Ideal) (iblk m c 0 t) (iblk m c 2 t) (iblk m c 3 t) (iblk m c 4 t) (iblk m c 5 t) (iblk m c 6 t) (iblk m c 7 t) (iblk m c 1 t)) r
      = joinRow (lfRow (row (iblk m c 0 t) r) (mat (iblk m c 2 t)) (vec (iblk m c 3 t)) (mat (iblk m c 4 t)) (vec (iblk m c 5 t)) (mat (iblk m c 6 t)) (vec (iblk m c 7 t))) (row (iblk m c 1 t) r) :=
    funext fun l => pay4_apply (iblk m c 0 t) (iblk m c 2 t) (iblk m c 3 t) (iblk m c 4 t) (iblk m c 5 t) (iblk m c 6 t) (iblk m c 7 t) (iblk m c 1 t) r l
  rw [hu]
  show featRow (joinRow (lfRow (row (iblk m c 0 t) r) (mat (iblk m c 2 t)) (vec (iblk m c 3 t)) (mat (iblk m c 4 t)) (vec (iblk m c 5 t)) (mat (iblk m c 6 t)) (vec (iblk m c 7 t))) (row (iblk m c 1 t) r)) (mat (iblk m c 8 t)) (vec (iblk m c 9 t)) j
    = featRow (joinRow (lfRow (row (V m c main_v52) (rowOf t r)) (mat (V m c main_v53)) (vec (V m c main_arg2)) (mat (V m c main_v54)) (vec (V m c main_arg4)) (mat (V m c main_v55)) (vec (V m c main_arg6))) (row (V m c main_v51) (rowOf t r))) (mat (V m c main_v56)) (vec (V m c main_arg8)) j
  rw [blk0_row, blk1_row, blk2_eq, blk3_eq, blk4_eq, blk5_eq, blk6_eq, blk7_eq, blk8_eq, blk9_eq]

theorem flushed12_eq (c : Dev nD) (t : Fin cfg0.N) :
    (dats m 0 c).flushed 12 t = ((cfg0.win 12).blk t).view.read (Elt Ideal) (outArr (V m c main_v52) (V m c main_v51) (V m c main_v53) (V m c main_arg2) (V m c main_v54) (V m c main_arg4) (V m c main_v55) (V m c main_arg6) (V m c main_v56) (V m c main_arg8) (V m c main_v57) (V m c main_arg10)) := by
  show (cfg0.win 12).cut (grid0.coords t) ((dats m 0 c).after 12 t) = _
  rw [after12]
  unfold out12
  rw [View.canon_unit_zero hz2]
  simp only [View.ld_unit_zero (S := S1024x1404) hz2, View.ld_unit_zero (S := S1024x6) hz2, View.ld_unit_zero (S := S1404x256) hz2, View.ld_unit_zero (S := S256) hz1, View.ld_unit_zero (S := S256x128) hz2, View.ld_unit_zero (S := S128) hz1, View.ld_unit_zero (S := S128x64) hz2, View.ld_unit_zero (S := S64) hz1, View.ld_unit_zero (S := S70x512) hz2, View.ld_unit_zero (S := S512) hz1, View.ld_unit_zero (S := S512x2) hz2, View.ld_unit_zero (S := S2) hz1]
  funext y
  obtain ⟨r, j, rfl⟩ : ∃ (r : Fin 1024) (j : Fin 2), y = ix2 r j := ⟨y 0, y 1, eq_ix2 y⟩
  show k0_pay2 (F := Ideal) (k0_pay4 (F := Ideal) (iblk m c 0 t) (iblk m c 2 t) (iblk m c 3 t) (iblk m c 4 t) (iblk m c 5 t) (iblk m c 6 t) (iblk m c 7 t) (iblk m c 1 t)) (iblk m c 8 t) (iblk m c 9 t) (iblk m c 10 t) (iblk m c 11 t) (ix2 r j)
    = outArr (V m c main_v52) (V m c main_v51) (V m c main_v53) (V m c main_arg2) (V m c main_v54) (V m c main_arg4) (V m c main_v55) (V m c main_arg6) (V m c main_v56) (V m c main_arg8) (V m c main_v57) (V m c main_arg10) (((cfg0.win 12).blk t).view.emb (ix2 r j))
  rw [emb12]
  refine (pay2_apply _ (iblk m c 8 t) (iblk m c 9 t) (iblk m c 10 t) (iblk m c 11 t) r j).trans ?_
  have hu : row (k0_pay4 (F := Ideal) (iblk m c 0 t) (iblk m c 2 t) (iblk m c 3 t) (iblk m c 4 t) (iblk m c 5 t) (iblk m c 6 t) (iblk m c 7 t) (iblk m c 1 t)) r
      = joinRow (lfRow (row (iblk m c 0 t) r) (mat (iblk m c 2 t)) (vec (iblk m c 3 t)) (mat (iblk m c 4 t)) (vec (iblk m c 5 t)) (mat (iblk m c 6 t)) (vec (iblk m c 7 t))) (row (iblk m c 1 t) r) :=
    funext fun l => pay4_apply (iblk m c 0 t) (iblk m c 2 t) (iblk m c 3 t) (iblk m c 4 t) (iblk m c 5 t) (iblk m c 6 t) (iblk m c 7 t) (iblk m c 1 t) r l
  rw [hu]
  show outRow (featRow (joinRow (lfRow (row (iblk m c 0 t) r) (mat (iblk m c 2 t)) (vec (iblk m c 3 t)) (mat (iblk m c 4 t)) (vec (iblk m c 5 t)) (mat (iblk m c 6 t)) (vec (iblk m c 7 t))) (row (iblk m c 1 t) r)) (mat (iblk m c 8 t)) (vec (iblk m c 9 t))) (mat (iblk m c 10 t)) (vec (iblk m c 11 t)) j
    = outRow (featRow (joinRow (lfRow (row (V m c main_v52) (rowOf t r)) (mat (V m c main_v53)) (vec (V m c main_arg2)) (mat (V m c main_v54)) (vec (V m c main_arg4)) (mat (V m c main_v55)) (vec (V m c main_arg6))) (row (V m c main_v51) (rowOf t r))) (mat (V m c main_v56)) (vec (V m c main_arg8))) (mat (V m c main_v57)) (vec (V m c main_arg10)) j
  rw [blk0_row, blk1_row, blk2_eq, blk3_eq, blk4_eq, blk5_eq, blk6_eq, blk7_eq, blk8_eq, blk9_eq, blk10_eq, blk11_eq]

/-! ## The arrays after the run -/

theorem final14 (c : Dev nD) : (dats m 0 c).arrAt 14 cfg0.N = lfArr (V m c main_v52) (V m c main_v53) (V m c main_arg2) (V m c main_v54) (V m c main_arg4) (V m c main_v55) (V m c main_arg6) :=
  (dats m 0 c).arrAt_eq_of_cover 14 _ (fun t _ => flushed14_eq m c t) tiles14

theorem final13 (c : Dev nD) : (dats m 0 c).arrAt 13 cfg0.N = featArr (V m c main_v52) (V m c main_v51) (V m c main_v53) (V m c main_arg2) (V m c main_v54) (V m c main_arg4) (V m c main_v55) (V m c main_arg6) (V m c main_v56) (V m c main_arg8) :=
  (dats m 0 c).arrAt_eq_of_cover 13 _ (fun t _ => flushed13_eq m c t) tiles13

theorem final12 (c : Dev nD) : (dats m 0 c).arrAt 12 cfg0.N = outArr (V m c main_v52) (V m c main_v51) (V m c main_v53) (V m c main_arg2) (V m c main_v54) (V m c main_arg4) (V m c main_v55) (V m c main_arg6) (V m c main_v56) (V m c main_arg8) (V m c main_v57) (V m c main_arg10) :=
  (dats m 0 c).arrAt_eq_of_cover 12 _ (fun t _ => flushed12_eq m c t) tiles12

end Cert.KernelIdeal.Hand

end
-- ==== Proof.KernelIdealHostVals.lean ====
/-
  What the idealized kernel program's host operations leave in the arrays the launch reads.

  The flattened landmark array and the six pose columns are the same operations of the input as the reference's:
  they are named here by the reference's own stage functions of the input, and each equation holds because both
  sides are the same composition of the same slices, reshapes, sums, differences and broadcasts. The five bf16
  weight arrays are the narrowed arguments.

  An array is read off the fold of the 59 operations in one pass. At its own result array an operation leaves its
  function of its operands' contents; at every other array it leaves what was there. The program assigns each array
  once and writes no argument, so the pass ends at a term over the arguments alone. The six pose columns are joined
  by one operation of six operands; its result is stated below with each operand's contents at its own array, so
  that the pass goes on into the columns.
-/
import proofs.«161893_j11553462026408_1_alg».proof.Proof.KernelIdealHost
import proofs.«161893_j11553462026408_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

/-- An operation of six operands leaves, at its result array, its function of the six operands' contents, each
    taken at its own array. -/
private theorem nary6_result {τ' : Topo} {sig' : RefSig} {Val : EltTy → Type} {x0 x1 x2 x3 x4 x5 y : Ref sig' .tc}
    (f : ((k : Fin 6) → ((![x0, x1, x2, x3, x4, x5] : Fin 6 → Ref sig' .tc) k).ty.Contents Val) → y.ty.Contents Val) (hxs hy)
    (G : Valuation τ' sig' Val) :
    (StableHlo.nary (τ := τ') ![x0, x1, x2, x3, x4, x5] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
            (fun i => i.elim0))))))) := by
  rw [StableHlo.nary_result]; congr 1; funext k; fin_cases k <;> rfl

/-- The same equation, restated for use as a rewriting rule. -/
private theorem nary6_result' {τ' : Topo} {sig' : RefSig} {Val : EltTy → Type} {x0 x1 x2 x3 x4 x5 y : Ref sig' .tc}
    (f : ((k : Fin 6) → ((![x0, x1, x2, x3, x4, x5] : Fin 6 → Ref sig' .tc) k).ty.Contents Val) → y.ty.Contents Val) (hxs hy)
    (G : Valuation τ' sig' Val) :
    (StableHlo.nary (τ := τ') ![x0, x1, x2, x3, x4, x5] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
            (fun i => i.elim0))))))) :=
  nary6_result f hxs hy G

/-- One array read off the fold: the fold is opened operation by operation; each operation's result is its
    function of its operands' contents at its own array and what was there at any other, two arrays being told
    apart by deciding that their references differ. -/
local macro "read_fold" : tactic =>
  `(tactic| simp (disch := decide) only [StableHlo.after_cons, StableHlo.after_nil,
      StableHlo.nullary_result', StableHlo.unary_result', StableHlo.binary_result', StableHlo.reshape_result',
      nary6_result',
      StableHlo.nullary_result_ne', StableHlo.unary_result_ne', StableHlo.binary_result_ne',
      StableHlo.reshape_result_ne', StableHlo.nary_result_ne'])

variable {F : FTy → Type} [FloatOps F]
variable (m : (ℓ : Loc nD τ sig) → Buf (Elt F) ℓ)

/-- The flattened landmark array: the input reshaped to [32768, 1404], which is the reference's stage. -/
theorem V_main_v52 (c : Dev nD) : V m c main_v52 = Cert.ReferenceIdeal.Read.val_main_v52 (F := F) (m ((c : Thread nD τ).loc main_arg0)) := by
  dsimp only [V, hostOps0]
  read_fold <;> rfl

/-- The six pose columns: six coordinate differences of landmark rows and the eye midpoint, set side by side. The
    operations and their order are the reference's, stage for stage. -/
theorem V_main_v51 (c : Dev nD) : V m c main_v51 = Cert.ReferenceIdeal.Read.val_main_v51 (F := F) (m ((c : Thread nD τ).loc main_arg0)) := by
  dsimp only [V, hostOps0]
  read_fold <;> rfl

/-- The first layer's weights, narrowed to bf16. -/
theorem V_main_v53 (c : Dev nD) : V m c main_v53 = truncf .bf16 (m ((c : Thread nD τ).loc main_arg1)) bitsLt_bf16_f32 := by
  dsimp only [V, hostOps0]
  read_fold <;> rfl

/-- The second layer's weights, narrowed to bf16. -/
theorem V_main_v54 (c : Dev nD) : V m c main_v54 = truncf .bf16 (m ((c : Thread nD τ).loc main_arg3)) bitsLt_bf16_f32 := by
  dsimp only [V, hostOps0]
  read_fold <;> rfl

/-- The third layer's weights, narrowed to bf16. -/
theorem V_main_v55 (c : Dev nD) : V m c main_v55 = truncf .bf16 (m ((c : Thread nD τ).loc main_arg5)) bitsLt_bf16_f32 := by
  dsimp only [V, hostOps0]
  read_fold <;> rfl

/-- The fourth layer's weights, narrowed to bf16. -/
theorem V_main_v56 (c : Dev nD) : V m c main_v56 = truncf .bf16 (m ((c : Thread nD τ).loc main_arg7)) bitsLt_bf16_f32 := by
  dsimp only [V, hostOps0]
  read_fold <;> rfl

/-- The last layer's weights, narrowed to bf16. -/
theorem V_main_v57 (c : Dev nD) : V m c main_v57 = truncf .bf16 (m ((c : Thread nD τ).loc main_arg9)) bitsLt_bf16_f32 := by
  dsimp only [V, hostOps0]
  read_fold <;> rfl

end Cert.KernelIdeal.Hand

end
-- ==== Proof.KernelIdealValues.lean ====
/-
  The idealized kernel program's run, with each result as a function of the arguments.

  Every execution ends with the logits, features and landmark features at `outArr`, `featArr` and `lfArr` of the
  flattened landmarks, the pose columns and the weights (narrowing a weight to bf16 changes nothing over the
  extended reals), the pose result at the pose columns, and the arguments unchanged. The flattening and the pose
  columns are the same host operations of the input as in the reference, and are named by its stage functions.
-/
import proofs.«161893_j11553462026408_1_alg».proof.Proof.KernelIdealFinal
import proofs.«161893_j11553462026408_1_alg».proof.Proof.KernelIdealHostVals

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Mlp

variable (m : (ℓ : Loc nD τ sig) → Buf (Elt Ideal) ℓ) (ρ : Dev nD → PrngReg)

/-! In a state the launch theorem's post holds of, each result array is the whole-array specification of the
    arguments: the array a window writes back ends at what the write-backs make of it, and what the launch found
    in the arrays it reads are the host operations' values of the arguments. -/

set_option maxHeartbeats 2000000 in
theorem res12 (r : PUnit × MemSt nD τ sig (Elt Ideal)) (h : Pipeline.FramePost cfgs (dats m) 0 (V m) r) (c : Dev nD) :
    r.2.mem ((c.tc : Thread nD τ).loc main_v58_0) = outArr (Cert.ReferenceIdeal.Read.val_main_v52 (F := Ideal) (m ((c.tc : Thread nD τ).loc main_arg0))) (Cert.ReferenceIdeal.Read.val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (((h c).1 12).trans (final12 m c)).trans ?_
  rw [V_main_v52, V_main_v51, V_main_v53, V_main_arg2, V_main_v54, V_main_arg4, V_main_v55, V_main_arg6, V_main_v56, V_main_arg8, V_main_v57, V_main_arg10]
  rfl

set_option maxHeartbeats 2000000 in
theorem res13 (r : PUnit × MemSt nD τ sig (Elt Ideal)) (h : Pipeline.FramePost cfgs (dats m) 0 (V m) r) (c : Dev nD) :
    r.2.mem ((c.tc : Thread nD τ).loc main_v58_1) = featArr (Cert.ReferenceIdeal.Read.val_main_v52 (F := Ideal) (m ((c.tc : Thread nD τ).loc main_arg0))) (Cert.ReferenceIdeal.Read.val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (((h c).1 13).trans (final13 m c)).trans ?_
  rw [V_main_v52, V_main_v51, V_main_v53, V_main_arg2, V_main_v54, V_main_arg4, V_main_v55, V_main_arg6, V_main_v56, V_main_arg8]
  rfl

set_option maxHeartbeats 2000000 in
theorem res14 (r : PUnit × MemSt nD τ sig (Elt Ideal)) (h : Pipeline.FramePost cfgs (dats m) 0 (V m) r) (c : Dev nD) :
    r.2.mem ((c.tc : Thread nD τ).loc main_v58_2) = lfArr (Cert.ReferenceIdeal.Read.val_main_v52 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (((h c).1 14).trans (final14 m c)).trans ?_
  rw [V_main_v52, V_main_v53, V_main_arg2, V_main_v54, V_main_arg4, V_main_v55, V_main_arg6]
  rfl

set_option maxHeartbeats 2000000 in
/-- The pose result is the array of window 1, which is read and never written back. -/
theorem res_pose (r : PUnit × MemSt nD τ sig (Elt Ideal)) (h : Pipeline.FramePost cfgs (dats m) 0 (V m) r) (c : Dev nD) :
    r.2.mem ((c.tc : Thread nD τ).loc main_v51) = Cert.ReferenceIdeal.Read.val_main_v51 (F := Ideal) (m ((c.tc : Thread nD τ).loc main_arg0)) :=
  (((h c).1 1).trans ((dats m 0 c).arrAt_in 1 rfl _)).trans ((A_eq m c 1).trans (V_main_v51 m c))

set_option maxHeartbeats 2000000 in
theorem run_values : θ_run (defs (F := Ideal)) (onTc (τ := τ) (main (F := Ideal))) ⟨m, fun _ => 0, ρ⟩ fun r => ∀ c : Dev nD,
      r.2.mem ((c.tc : Thread nD τ).loc main_v58_0) = outArr (Cert.ReferenceIdeal.Read.val_main_v52 (F := Ideal) (m ((c.tc : Thread nD τ).loc main_arg0))) (Cert.ReferenceIdeal.Read.val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v58_1) = featArr (Cert.ReferenceIdeal.Read.val_main_v52 (F := Ideal) (m ((c.tc : Thread nD τ).loc main_arg0))) (Cert.ReferenceIdeal.Read.val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v51) = Cert.ReferenceIdeal.Read.val_main_v51 (F := Ideal) (m ((c.tc : Thread nD τ).loc main_arg0))
      ∧ r.2.mem ((c.tc : Thread nD τ).loc main_v58_2) = lfArr (Cert.ReferenceIdeal.Read.val_main_v52 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨res12 m r h c, res13 m r h c, res_pose m r h c, res14 m r h c, kept_of m (dats m) (A_eq m) r h c⟩) (run_main m ρ)

end Cert.KernelIdeal.Hand

end
-- ==== Proof.RefRowsLf.lean ====
/-
  The reference's landmark features, read at an index.

  At the extended reals the reference's landmark-feature array at row `b`, column `j` is `lfRow` of row `b` of the
  flattened landmark array: each `dot_general` is the sum over its contracted axis, each bias is broadcast along
  the rows, and each relu is `max · 0`. The flattening itself is never opened.

  One lemma per layer. At the index `(b, j)` the contraction of a layer reads its left operand at `(b, k)` and its
  weight at `(k, j)`; the bias, broadcast first to one row and then to every row, is read at `j`; the zero the relu
  compares with is the word of `+0`, which is the extended real `0`. So layer `n` at `(b, j)` is
  `Σ_k (layer n-1 at (b, k)) · w_{k j} + c_j`, with `max · 0` after the first two, and the layer before enters under
  the sum by its own lemma.
-/
import proofs.«161893_j11553462026408_1_alg».proof.Proof.Gen.ReferenceIdeal.Read
import proofs.«161893_j11553462026408_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Idealize.ShloMosaic Idealize.ShloMosaic.ValueIdx
open Cert.ReferenceIdeal Cert.ReferenceIdeal.Read Cert.Mlp
open scoped BigOperators

/-! ## Where each layer reads its operands

  At `(b, j)`: the left operand of the contraction at `(b, k)`, the weight at `(k, j)`, the twice-broadcast bias at `j`. -/

theorem lidx_v53 (b : Fin 32768) (j : Fin 256) (k : Fin 1404) : lidx_main_v53 (ix2 b j) k = ix2 b k :=
  funext fun a => Fin.ext (by match a with | ⟨0, _⟩ => rfl | ⟨1, _⟩ => rfl)
theorem ridx_v53 (b : Fin 32768) (j : Fin 256) (k : Fin 1404) : ridx_main_v53 (ix2 b j) k = ix2 k j :=
  funext fun a => Fin.ext (by match a with | ⟨0, _⟩ => rfl | ⟨1, _⟩ => rfl)
theorem bidx_v55 (b : Fin 32768) (j : Fin 256) : idx_main_v54 (idx_main_v55 (ix2 b j)) = ix1 j :=
  funext fun a => Fin.ext (by match a with | ⟨0, _⟩ => rfl)

theorem lidx_v58 (b : Fin 32768) (j : Fin 128) (k : Fin 256) : lidx_main_v58 (ix2 b j) k = ix2 b k :=
  funext fun a => Fin.ext (by match a with | ⟨0, _⟩ => rfl | ⟨1, _⟩ => rfl)
theorem ridx_v58 (b : Fin 32768) (j : Fin 128) (k : Fin 256) : ridx_main_v58 (ix2 b j) k = ix2 k j :=
  funext fun a => Fin.ext (by match a with | ⟨0, _⟩ => rfl | ⟨1, _⟩ => rfl)
theorem bidx_v60 (b : Fin 32768) (j : Fin 128) : idx_main_v59 (idx_main_v60 (ix2 b j)) = ix1 j :=
  funext fun a => Fin.ext (by match a with | ⟨0, _⟩ => rfl)

theorem lidx_v63 (b : Fin 32768) (j : Fin 64) (k : Fin 128) : lidx_main_v63 (ix2 b j) k = ix2 b k :=
  funext fun a => Fin.ext (by match a with | ⟨0, _⟩ => rfl | ⟨1, _⟩ => rfl)
theorem ridx_v63 (b : Fin 32768) (j : Fin 64) (k : Fin 128) : ridx_main_v63 (ix2 b j) k = ix2 k j :=
  funext fun a => Fin.ext (by match a with | ⟨0, _⟩ => rfl | ⟨1, _⟩ => rfl)
theorem bidx_v65 (b : Fin 32768) (j : Fin 64) : idx_main_v64 (idx_main_v65 (ix2 b j)) = ix1 j :=
  funext fun a => Fin.ext (by match a with | ⟨0, _⟩ => rfl)

/-! ## The layers -/

/-- The first layer after its relu: `max (Σ_k x_{b k} · w1_{k j} + c1_j) 0`. -/
theorem l1_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (b : Fin 32768) (j : Fin 256) :
    val_main_v57 (F := Ideal) a0 a1 a2 (ix2 b j) = relu (dense (row (val_main_v52 (F := Ideal) a0) b) (mat a1) (vec a2) j) := by
  rw [val_main_v57_apply, val_main_v56_apply, val_main_v53_apply, val_main_v55_apply, val_main_v54_apply,
    val_main_call0_v0_apply, val_main_call0_cst_apply]
  simp only [lidx_v53, ridx_v53, bidx_v55, Ideal.maximumf_def, Ideal.addf_def, Ideal.ofBits_def, Ideal.ofBits_zero_f32]
  rfl

/-- The second layer after its relu, the first one under its sum. -/
theorem l2_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (b : Fin 32768) (j : Fin 128) :
    val_main_v62 (F := Ideal) a0 a1 a2 a3 a4 (ix2 b j)
      = relu (dense (fun k => relu (dense (row (val_main_v52 (F := Ideal) a0) b) (mat a1) (vec a2) k)) (mat a3) (vec a4) j) := by
  rw [val_main_v62_apply, val_main_v61_apply, val_main_v58_apply, val_main_v60_apply, val_main_v59_apply,
    val_main_call1_v0_apply, val_main_call1_cst_apply]
  simp only [lidx_v58, ridx_v58, bidx_v60, l1_apply, Ideal.maximumf_def, Ideal.addf_def, Ideal.ofBits_def,
    Ideal.ofBits_zero_f32]
  rfl

/-- The third layer (no relu), the second one under its sum: the landmark features. -/
theorem lf_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (b : Fin 32768) (j : Fin 64) :
    val_main_v66 (F := Ideal) a0 a1 a2 a3 a4 a5 a6 (ix2 b j) = lfRow (row (val_main_v52 (F := Ideal) a0) b) (mat a1) (vec a2) (mat a3) (vec a4) (mat a5) (vec a6) j := by
  rw [val_main_v66_apply, val_main_v63_apply, val_main_v65_apply, val_main_v64_apply]
  simp only [lidx_v63, ridx_v63, bidx_v65, l2_apply, Ideal.addf_def]
  rfl

end Cert.ReferenceIdeal.Rows

end
-- ==== Proof.RefRowsFeat.lean ====
/-
  The reference's features and logits, read at an index.

  The 70-wide array the reference feeds its fourth layer is, at row `b`, the landmark features of that row joined
  with row `b` of the pose columns: a column below 64 falls in the first piece of the concatenation, a column from
  64 on in the second, 64 columns further left. Its features are that joined row through a dense layer (a sum over
  the 70 columns, plus the bias read through its two broadcasts) and `max · 0`, so `featRow` of the joined row; its
  logits are the feature row through the last dense layer, so `outRow` of the feature row. The pose columns and the
  flattened landmarks themselves are never opened.
-/
import proofs.«161893_j11553462026408_1_alg».proof.Proof.RefRowsLf
import proofs.«161893_j11553462026408_1_alg».proof.Proof.Gen.ReferenceIdeal.Read
import proofs.«161893_j11553462026408_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Rows

open Idealize.ShloMosaic Idealize.ShloMosaic.ValueIdx
open Cert.ReferenceIdeal Cert.ReferenceIdeal.Read Cert.Mlp
open scoped BigOperators

/-! ## The index functions of the two last layers at a row and a column -/

/-- The fourth layer's left operand is read at row `b`, column `k`. -/
private theorem lidx68 (b : Fin 32768) (j : Fin 512) (k : Fin 70) : lidx_main_v68 (ix2 b j) k = ix2 b k :=
  funext fun a => Fin.ext (by match a with | ⟨0, _⟩ => rfl | ⟨1, _⟩ => rfl)

/-- The fourth layer's weights are read at row `k`, column `j`. -/
private theorem ridx68 (b : Fin 32768) (j : Fin 512) (k : Fin 70) : ridx_main_v68 (ix2 b j) k = ix2 k j :=
  funext fun a => Fin.ext (by match a with | ⟨0, _⟩ => rfl | ⟨1, _⟩ => rfl)

/-- The fourth layer's bias, broadcast twice, is read at `j`. -/
private theorem bidx70 (b : Fin 32768) (j : Fin 512) : idx_main_v69 (idx_main_v70 (ix2 b j)) = ix1 j :=
  funext fun a => Fin.ext (by match a with | ⟨0, _⟩ => rfl)

/-- The last layer's left operand is read at row `b`, column `k`. -/
private theorem lidx73 (b : Fin 32768) (j : Fin 2) (k : Fin 512) : lidx_main_v73 (ix2 b j) k = ix2 b k :=
  funext fun a => Fin.ext (by match a with | ⟨0, _⟩ => rfl | ⟨1, _⟩ => rfl)

/-- The last layer's weights are read at row `k`, column `j`. -/
private theorem ridx73 (b : Fin 32768) (j : Fin 2) (k : Fin 512) : ridx_main_v73 (ix2 b j) k = ix2 k j :=
  funext fun a => Fin.ext (by match a with | ⟨0, _⟩ => rfl | ⟨1, _⟩ => rfl)

/-- The last layer's bias, broadcast twice, is read at `j`. -/
private theorem bidx75 (b : Fin 32768) (j : Fin 2) : idx_main_v74 (idx_main_v75 (ix2 b j)) = ix1 j :=
  funext fun a => Fin.ext (by match a with | ⟨0, _⟩ => rfl)

/-! ## The joined row -/

/-- Entry `(b, l)` of the 70-wide array: below column 64 it is a landmark feature of row `b`, from column 64 on it
    is entry `l - 64` of row `b` of the pose columns. -/
private theorem join_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (b : Fin 32768) (l : Fin 70) :
    val_main_v67 (F := Ideal) a0 a1 a2 a3 a4 a5 a6 (ix2 b l) = joinRow (lfRow (row (val_main_v52 (F := Ideal) a0) b) (mat a1) (vec a2) (mat a3) (vec a4) (mat a5) (vec a6)) (row (val_main_v51 (F := Ideal) a0) b) l := by
  unfold val_main_v67 joinRow
  by_cases h : l.val < 64
  · rw [dif_pos h, concatenate_pair_apply_left (s₁ := S32768x64) (s₂ := S32768x6) 1 _ _ _ (ix2 b l) rfl (ix2 b ⟨l.val, h⟩)
      (fun c => by match c with | ⟨0, _⟩ => rfl | ⟨1, _⟩ => rfl)]
    exact lf_apply a0 a1 a2 a3 a4 a5 a6 b ⟨l.val, h⟩
  · rw [dif_neg h, concatenate_pair_apply_right (s₁ := S32768x64) (s₂ := S32768x6) 1 _ _ _ (ix2 b l) rfl rfl (ix2 b ⟨l.val - 64, by omega⟩)
      (fun c hc => by match c with | ⟨0, _⟩ => rfl | ⟨1, _⟩ => exact absurd rfl hc)
      (by show l.val - 64 + 64 = l.val; omega)]

/-! ## The features and the logits -/

/-- Entry `(b, j)` of the reference's features: `max · 0` of the joined row of `b` through the fourth dense layer. -/
theorem feat_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S70x512, .f32⟩ : BufTy).Contents (Elt Ideal)) (a8 : (⟨S512, .f32⟩ : BufTy).Contents (Elt Ideal)) (b : Fin 32768) (j : Fin 512) :
    val_main_v72 (F := Ideal) a0 a1 a2 a3 a4 a5 a6 a7 a8 (ix2 b j) = featRow (joinRow (lfRow (row (val_main_v52 (F := Ideal) a0) b) (mat a1) (vec a2) (mat a3) (vec a4) (mat a5) (vec a6)) (row (val_main_v51 (F := Ideal) a0) b)) (mat a7) (vec a8) j := by
  rw [val_main_v72_apply, val_main_v71_apply, val_main_v68_apply, val_main_v70_apply, val_main_v69_apply,
    val_main_call2_v0_apply, val_main_call2_cst_apply]
  simp only [lidx68, ridx68, bidx70, join_apply, Ideal.maximumf_def, Ideal.addf_def,
    Ideal.ofBits_def, Ideal.ofBits_zero_f32]
  rfl

/-- Entry `(b, j)` of the reference's logits: the feature row of `b` through the last dense layer. -/
theorem out_apply (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S70x512, .f32⟩ : BufTy).Contents (Elt Ideal)) (a8 : (⟨S512, .f32⟩ : BufTy).Contents (Elt Ideal)) (a9 : (⟨S512x2, .f32⟩ : BufTy).Contents (Elt Ideal)) (a10 : (⟨S2, .f32⟩ : BufTy).Contents (Elt Ideal)) (b : Fin 32768) (j : Fin 2) :
    val_main_v76 (F := Ideal) a0 a1 a2 a3 a4 a5 a6 a7 a8 a9 a10 (ix2 b j) = outRow (featRow (joinRow (lfRow (row (val_main_v52 (F := Ideal) a0) b) (mat a1) (vec a2) (mat a3) (vec a4) (mat a5) (vec a6)) (row (val_main_v51 (F := Ideal) a0) b)) (mat a7) (vec a8)) (mat a9) (vec a10) j := by
  rw [val_main_v76_apply, val_main_v73_apply, val_main_v75_apply, val_main_v74_apply]
  simp only [lidx73, ridx73, bidx75, feat_apply, Ideal.addf_def]
  rfl

end Cert.ReferenceIdeal.Rows

end
-- ==== Proof.RefValues.lean ====
/-
  The reference's run, with each result at the whole-array specification.

  Every execution of the reference ends with its logits, features and landmark features at `outArr`, `featArr`
  and `lfArr` of the flattened landmarks, the pose columns and the weights, its pose result at the pose columns,
  and its arguments unchanged: the run's composed terms are the stages, and the stages read at an index are the
  row functions.
-/
import proofs.«161893_j11553462026408_1_alg».proof.Proof.Gen.ReferenceIdeal.Read
import proofs.«161893_j11553462026408_1_alg».proof.Proof.RefRowsFeat
import proofs.«161893_j11553462026408_1_alg».proof.Proof.Spec
import Idealize.ShloMosaic.Lib.ValueIdx

set_option maxRecDepth 16384

noncomputable section

namespace Cert.ReferenceIdeal.Rows

open Idealize.ShloMosaic Idealize.ShloMosaic.TcCoe Idealize.ShloMosaic.ValueIdx Idealize.SL.Sem
open Cert.ReferenceIdeal Cert.ReferenceIdeal.Read Cert.Mlp

/-- The landmark-feature stage is `lfArr` of the flattened landmarks and the first three layers' weights: two arrays
    over the index set `32768 × 64` with the same entry, `lfRow` of row `b` at column `j`, at every `(b, j)`. -/
private theorem lf_arr (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) :
    val_main_v66 (F := Ideal) a0 a1 a2 a3 a4 a5 a6 = lfArr (val_main_v52 (F := Ideal) a0) a1 a2 a3 a4 a5 a6 := by
  funext i
  obtain ⟨b, j, rfl⟩ : ∃ (b : Fin 32768) (j : Fin 64), i = ix2 b j := ⟨i 0, i 1, eq_ix2 i⟩
  exact lf_apply a0 a1 a2 a3 a4 a5 a6 b j

/-- The feature stage is `featArr` of the flattened landmarks, the pose columns and the first four layers' weights:
    entry `(b, j)` of each is `featRow` of the joined row `b` at column `j`. -/
private theorem feat_arr (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S70x512, .f32⟩ : BufTy).Contents (Elt Ideal)) (a8 : (⟨S512, .f32⟩ : BufTy).Contents (Elt Ideal)) :
    val_main_v72 (F := Ideal) a0 a1 a2 a3 a4 a5 a6 a7 a8 = featArr (val_main_v52 (F := Ideal) a0) (val_main_v51 (F := Ideal) a0) a1 a2 a3 a4 a5 a6 a7 a8 := by
  funext i
  obtain ⟨b, j, rfl⟩ : ∃ (b : Fin 32768) (j : Fin 512), i = ix2 b j := ⟨i 0, i 1, eq_ix2 i⟩
  exact feat_apply a0 a1 a2 a3 a4 a5 a6 a7 a8 b j

/-- The logit stage is `outArr` of the flattened landmarks, the pose columns and all five layers' weights: entry
    `(b, j)` of each is `outRow` of the features of row `b` at column `j`. -/
private theorem out_arr (a0 : (⟨S32768x468x3, .f32⟩ : BufTy).Contents (Elt Ideal)) (a1 : (⟨S1404x256, .f32⟩ : BufTy).Contents (Elt Ideal)) (a2 : (⟨S256, .f32⟩ : BufTy).Contents (Elt Ideal)) (a3 : (⟨S256x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S70x512, .f32⟩ : BufTy).Contents (Elt Ideal)) (a8 : (⟨S512, .f32⟩ : BufTy).Contents (Elt Ideal)) (a9 : (⟨S512x2, .f32⟩ : BufTy).Contents (Elt Ideal)) (a10 : (⟨S2, .f32⟩ : BufTy).Contents (Elt Ideal)) :
    val_main_v76 (F := Ideal) a0 a1 a2 a3 a4 a5 a6 a7 a8 a9 a10 = outArr (val_main_v52 (F := Ideal) a0) (val_main_v51 (F := Ideal) a0) a1 a2 a3 a4 a5 a6 a7 a8 a9 a10 := by
  funext i
  obtain ⟨b, j, rfl⟩ : ∃ (b : Fin 32768) (j : Fin 2), i = ix2 b j := ⟨i 0, i 1, eq_ix2 i⟩
  exact out_apply a0 a1 a2 a3 a4 a5 a6 a7 a8 a9 a10 b j

theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76) = outArr (val_main_v52 (F := Ideal) (m ((c.tc : Thread nD τ).loc main_arg0))) (val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v72) = featArr (val_main_v52 (F := Ideal) (m ((c.tc : Thread nD τ).loc main_arg0))) (val_main_v51 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v51) = val_main_v51 (F := Ideal) (m ((c.tc : Thread nD τ).loc main_arg0))
      ∧ r.2.mem ((c.tc : Thread nD τ).loc main_v66) = lfArr (val_main_v52 (F := Ideal) (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Cert.ReferenceIdeal.Value.run (F := Ideal) m ρ)
  obtain ⟨h0, h1, h2, h3, hk⟩ := h c
  exact ⟨(h0.trans (val_main_v76_eq m c)).trans (out_arr _ _ _ _ _ _ _ _ _ _ _),
    (h1.trans (val_main_v72_eq m c)).trans (feat_arr _ _ _ _ _ _ _ _ _),
    h2.trans (val_main_v51_eq m c),
    (h3.trans (val_main_v66_eq _ _ _ _ _ _ _)).trans (lf_arr _ _ _ _ _ _ _),
    hk⟩

end Cert.ReferenceIdeal.Rows

end
-- ==== Proof.lean ====
/-
  The certificate: a three-layer perceptron on face landmarks, a pose head and a classifier, computed by a
  batch-tiled kernel, against the same network in plain array operations.

  Both programs first compute, on the host, six pose numbers per sample from six fixed landmarks, and flatten
  each sample's 468 × 3 landmark coordinates to a row of 1404. The kernel program narrows its five weight
  matrices to bf16 and launches one kernel over 32 blocks of 1024 samples: three dense layers with `relu` give
  64 landmark features, these joined with the six pose numbers go through a dense layer and `relu` to 512
  features, and a last dense layer gives 2 logits. The reference computes the same layers on whole arrays.

  Frames. Each program runs to its end, faults nowhere and leaves its arguments as given: the reference by its
  generated run; the kernel program, at either float instance, by the launch theorem for a body that reads its
  input blocks whole and writes each output block once (the host operations before the launch touch no
  argument, and the launch writes only its three result arrays).

  Values, over the extended reals. Narrowing a float is the identity, a matrix product into a zero accumulator
  is the plain sum over the contracted axis, and sums do not depend on how the batch is tiled; so entry `(b, j)`
  of each of the kernel's three result arrays is the corresponding row function of row `b` of the flattened
  landmarks and of the pose columns, which is what the reference's result holds there. No law beyond reading
  both sides at an index is needed, and the precondition is not used. The pose columns are the same host
  operations of the same input in both programs.
-/
import proofs.«161893_j11553462026408_1_alg».proof.Defs
import proofs.«161893_j11553462026408_1_alg».proof.Proof.Gen.Kernel
import proofs.«161893_j11553462026408_1_alg».proof.Proof.Gen.KernelIdeal
import proofs.«161893_j11553462026408_1_alg».proof.Proof.Gen.ReferenceIdeal
import proofs.«161893_j11553462026408_1_alg».proof.Proof.Gen.Pre_finite_inputs
import proofs.«161893_j11553462026408_1_alg».proof.Proof.KernelRun
import proofs.«161893_j11553462026408_1_alg».proof.Proof.KernelIdealValues
import proofs.«161893_j11553462026408_1_alg».proof.Proof.RefValues

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

set_option maxHeartbeats 2000000 in
/-- From memories that agree on the arguments, both programs end with the four results at the same functions
    of the arguments. -/
theorem algebraic : Cert.algebraic_KernelIdeal_ReferenceIdeal := by
  intro m ρ m' ρ' _ hagree
  refine ⟨_, _, _, _, Cert.KernelIdeal.Hand.run_values m ρ, ?_⟩
  refine (θ_run Cert.ReferenceIdeal.defs _ _).mono (fun r h c => ?_) (Cert.ReferenceIdeal.Rows.run_values m' ρ')
  obtain ⟨a0, a1, a2, a3, a4, a5, a6, a7, a8, a9, a10⟩ := hagree c
  obtain ⟨h0, h1, h2, h3, hk⟩ := h c
  refine ⟨?_, ?_, ?_, ?_, hk⟩
  · rw [h0, a0, a1, a2, a3, a4, a5, a6, a7, a8, a9, a10]
  · rw [h1, a0, a1, a2, a3, a4, a5, a6, a7, a8]
  · rw [h2, a0]
  · rw [h3, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
